-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S100000 : Shape := ⟨1, ![100000]⟩
abbrev S20000 : Shape := ⟨1, ![20000]⟩
abbrev S1000000 : Shape := ⟨1, ![1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S100000 : S_.BroadcastsInDim S100000 (![] : Fin 0 → Fin S100000.rank)
  reducesTo_S100000_S_d0 : S100000.ReducesTo [0] S_
  bcast_S_S20000 : S_.BroadcastsInDim S20000 (![] : Fin 0 → Fin S20000.rank)
  reducesTo_S20000_S_d0 : S20000.ReducesTo [0] S_

variable [Facts]

def fn_part2 {F : FTy → Type} [FloatOps F] (main_arg7 : FVec F S20000 .f32) (main_arg8 : FVec F S20000 .f32) (main_arg9 : FVec F S20000 .f32) (main_v33 : IVec S_ 1) : IVec S_ 1 :=
  let main_v34 : FVec F S20000 .f32 := Host.absf main_arg7
  let main_cst_12 : FVec F S_ .f32 := constant S_ .f32 0x7F800000#32
  let main_v35 : FVec F S20000 .f32 := broadcastInDim S20000 ![] bcast_S_S20000 main_cst_12
  let main_v36 : IVec S20000 1 := cmpf .olt main_v34 main_v35
  let main_c_13 : IVec S_ 1 := constantI S_ 1 1#1
  let main_v37 : IVec S_ 1 := (fun x v => Host.reduce IntOp.andi x v reducesTo_S20000_S_d0 h_S_) main_v36 main_c_13
  let main_v38 : IVec S_ 1 := andi main_v33 main_v37
  let main_v39 : FVec F S20000 .f32 := Host.absf main_arg8
  let main_cst_14 : FVec F S_ .f32 := constant S_ .f32 0x7F800000#32
  let main_v40 : FVec F S20000 .f32 := broadcastInDim S20000 ![] bcast_S_S20000 main_cst_14
  let main_v41 : IVec S20000 1 := cmpf .olt main_v39 main_v40
  let main_c_15 : IVec S_ 1 := constantI S_ 1 1#1
  let main_v42 : IVec S_ 1 := (fun x v => Host.reduce IntOp.andi x v reducesTo_S20000_S_d0 h_S_) main_v41 main_c_15
  let main_v43 : IVec S_ 1 := andi main_v38 main_v42
  let main_v44 : FVec F S20000 .f32 := Host.absf main_arg9
  let main_cst_16 : FVec F S_ .f32 := constant S_ .f32 0x7F800000#32
  let main_v45 : FVec F S20000 .f32 := broadcastInDim S20000 ![] bcast_S_S20000 main_cst_16
  let main_v46 : IVec S20000 1 := cmpf .olt main_v44 main_v45
  let main_c_17 : IVec S_ 1 := constantI S_ 1 1#1
  let main_v47 : IVec S_ 1 := (fun x v => Host.reduce IntOp.andi x v reducesTo_S20000_S_d0 h_S_) main_v46 main_c_17
  let main_v48 : IVec S_ 1 := andi main_v43 main_v47
  main_v48

def fn_part1 {F : FTy → Type} [FloatOps F] (main_arg4 : FVec F S100000 .f32) (main_arg5 : FVec F S100000 .f32) (main_arg6 : FVec F S100000 .f32) (main_arg7 : FVec F S20000 .f32) (main_arg8 : FVec F S20000 .f32) (main_arg9 : FVec F S20000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S100000 .f32 := Host.absf main_arg4
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_v24 : FVec F S100000 .f32 := Host.absf main_arg5
  let main_cst_8 : FVec F S_ .f32 := constant S_ .f32 0x7F800000#32
  let main_v25 : FVec F S100000 .f32 := broadcastInDim S100000 ![] bcast_S_S100000 main_cst_8
  let main_v26 : IVec S100000 1 := cmpf .olt main_v24 main_v25
  let main_c_9 : IVec S_ 1 := constantI S_ 1 1#1
  let main_v27 : IVec S_ 1 := (fun x v => Host.reduce IntOp.andi x v reducesTo_S100000_S_d0 h_S_) main_v26 main_c_9
  let main_v28 : IVec S_ 1 := andi main_v23 main_v27
  let main_v29 : FVec F S100000 .f32 := Host.absf main_arg6
  let main_cst_10 : FVec F S_ .f32 := constant S_ .f32 0x7F800000#32
  let main_v30 : FVec F S100000 .f32 := broadcastInDim S100000 ![] bcast_S_S100000 main_cst_10
  let main_v31 : IVec S100000 1 := cmpf .olt main_v29 main_v30
  let main_c_11 : IVec S_ 1 := constantI S_ 1 1#1
  let main_v32 : IVec S_ 1 := (fun x v => Host.reduce IntOp.andi x v reducesTo_S100000_S_d0 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S20000x128 .f32) (main_arg2 : FVec F S128x128 .f32) (main_arg3 : FVec F S128 .f32) (main_arg4 : FVec F S100000 .f32) (main_arg5 : FVec F S100000 .f32) (main_arg6 : FVec F S100000 .f32) (main_arg7 : FVec F S20000 .f32) (main_arg8 : FVec F S20000 .f32) (main_arg9 : FVec F S20000 .f32) (main_arg10 : IVec S1000000 32) (main_arg11 : IVec S1000000 32) (main_arg12 : IVec S100000 32) (main_arg13 : IVec S20000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S100000 : Shape := ⟨1, ![100000]⟩
abbrev S20000 : Shape := ⟨1, ![20000]⟩
abbrev S1000000 : Shape := ⟨1, ![1000000]⟩
abbrev S2000x128 : Shape := ⟨2, ![2000, 128]⟩
abbrev S1x128 : Shape := ⟨2, ![1, 128]⟩
abbrev S_ : Shape := ⟨0, ![]⟩
abbrev S1000000x1 : Shape := ⟨2, ![1000000, 1]⟩
abbrev S1000000x128 : Shape := ⟨2, ![1000000, 128]⟩
abbrev S1007616x128 : Shape := ⟨2, ![1007616, 128]⟩
abbrev S1007616 : Shape := ⟨1, ![1007616]⟩
abbrev S8192x128 : Shape := ⟨2, ![8192, 128]⟩
abbrev S8192 : Shape := ⟨1, ![8192]⟩
abbrev S1x1000000 : Shape := ⟨2, ![1, 1000000]⟩
abbrev S2x1000000 : Shape := ⟨2, ![2, 1000000]⟩

abbrev nBuf : Space → Nat
  | .hbm => 136
  | .vmem => 26
  | .smem => 0
  | _ => 0

abbrev hbmTy0_0 (i : Nat) : BufTy := match i % 128 with
  | 0 => ⟨S100000x128, .f32⟩
  | 1 => ⟨S20000x128, .f32⟩
  | 2 => ⟨S128x128, .f32⟩
  | 3 => ⟨S128, .f32⟩
  | 4 => ⟨S100000, .f32⟩
  | 5 => ⟨S100000, .f32⟩
  | 6 => ⟨S100000, .f32⟩
  | 7 => ⟨S20000, .f32⟩
  | 8 => ⟨S20000, .f32⟩
  | 9 => ⟨S20000, .f32⟩
  | 10 => ⟨S1000000, .i32⟩
  | 11 => ⟨S1000000, .i32⟩
  | 12 => ⟨S100000, .i32⟩
  | 13 => ⟨S20000, .i32⟩
  | 14 => ⟨S20000x128, .f32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000, .i32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000, .i32⟩
  | 33 => ⟨S_, .i32⟩
  | 34 => ⟨S1000000, .i32⟩
  | 35 => ⟨S1000000, .i1⟩
  | 36 => ⟨S_, .i32⟩
  | 37 => ⟨S1000000, .i32⟩
  | 38 => ⟨S1000000, .i32⟩
  | 39 => ⟨S1000000, .i32⟩
  | 40 => ⟨S1000000x1, .i32⟩
  | 41 => ⟨S1000000, .f32⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S1000000, .f32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1000000, .f32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000, .f32⟩
  | 69 => ⟨S_, .i32⟩
  | 70 => ⟨S1000000, .i32⟩
  | 71 => ⟨S1000000, .i1⟩
  | 72 => ⟨S_, .i32⟩
  | 73 => ⟨S1000000, .i32⟩
  | 74 => ⟨S1000000, .i32⟩
  | 75 => ⟨S1000000, .i32⟩
  | 76 => ⟨S1000000x1, .i32⟩
  | 77 => ⟨S1000000, .f32⟩
  | 78 => ⟨S_, .i32⟩
  | 79 => ⟨S1000000, .i32⟩
  | 80 => ⟨S1000000, .i1⟩
  | 81 => ⟨S_, .i32⟩
  | 82 => ⟨S1000000, .i32⟩
  | 83 => ⟨S1000000, .i32⟩
  | 84 => ⟨S1000000, .i32⟩
  | 85 => ⟨S1000000x1, .i32⟩
  | 86 => ⟨S1000000, .f32⟩
  | 87 => ⟨S_, .i32⟩
  | 88 => ⟨S1000000, .i32⟩
  | 89 => ⟨S1000000, .i1⟩
  | 90 => ⟨S_, .i32⟩
  | 91 => ⟨S1000000, .i32⟩
  | 92 => ⟨S1000000, .i32⟩
  | 93 => ⟨S1000000, .i32⟩
  | 94 => ⟨S1000000x1, .i32⟩
  | 95 => ⟨S1000000x128, .f32⟩
  | 96 => ⟨S_, .i32⟩
  | 97 => ⟨S1000000, .i32⟩
  | 98 => ⟨S1000000, .i1⟩
  | 99 => ⟨S_, .i32⟩
  | 100 => ⟨S1000000, .i32⟩
  | 101 => ⟨S1000000, .i32⟩
  | 102 => ⟨S1000000, .i32⟩
  | 103 => ⟨S1000000x1, .i32⟩
  | 104 => ⟨S1000000x128, .f32⟩
  | 105 => ⟨S_, .i32⟩
  | 106 => ⟨S_, .f32⟩
  | 107 => ⟨S1007616x128, .f32⟩
  | 108 => ⟨S_, .i32⟩
  | 109 => ⟨S_, .f32⟩
  | 110 => ⟨S1007616x128, .f32⟩
  | 111 => ⟨S_, .i32⟩
  | 112 => ⟨S_, .f32⟩
  | 113 => ⟨S1007616, .f32⟩
  | 114 => ⟨S_, .i32⟩
  | 115 => ⟨S_, .f32⟩
  | 116 => ⟨S1007616, .f32⟩
  | 117 => ⟨S_, .i32⟩
  | 118 => ⟨S_, .f32⟩
  | 119 => ⟨S1007616, .f32⟩
  | 120 => ⟨S_, .i32⟩
  | 121 => ⟨S_, .f32⟩
  | 122 => ⟨S1007616, .f32⟩
  | 123 => ⟨S_, .i32⟩
  | 124 => ⟨S_, .f32⟩
  | 125 => ⟨S1007616, .f32⟩
  | 126 => ⟨S_, .i32⟩
  | 127 => ⟨S_, .f32⟩
  | _ => ⟨S100000x128, .f32⟩

abbrev hbmTy0_1 (i : Nat) : BufTy := match i % 128 with
  | 0 => ⟨S1007616, .f32⟩
  | 1 => ⟨S1007616, .f32⟩
  | 2 => ⟨S1007616, .f32⟩
  | 3 => ⟨S1000000, .f32⟩
  | 4 => ⟨S1000000, .f32⟩
  | 5 => ⟨S1x1000000, .f32⟩
  | 6 => ⟨S1x1000000, .f32⟩
  | 7 => ⟨S2x1000000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192, .f32⟩
  | .local _ .vmem, ⟨11, _⟩ => ⟨S8192, .f32⟩
  | .local _ .vmem, ⟨12, _⟩ => ⟨S8192, .f32⟩
  | .local _ .vmem, ⟨13, _⟩ => ⟨S8192, .f32⟩
  | .local _ .vmem, ⟨14, _⟩ => ⟨S8192, .f32⟩
  | .local _ .vmem, ⟨15, _⟩ => ⟨S8192, .f32⟩
  | .local _ .vmem, ⟨16, _⟩ => ⟨S8192, .f32⟩
  | .local _ .vmem, ⟨17, _⟩ => ⟨S8192, .f32⟩
  | .local _ .vmem, ⟨18, _⟩ => ⟨S8192, .f32⟩
  | .local _ .vmem, ⟨19, _⟩ => ⟨S8192, .f32⟩
  | .local _ .vmem, ⟨20, _⟩ => ⟨S8192, .f32⟩
  | .local _ .vmem, ⟨21, _⟩ => ⟨S8192, .f32⟩
  | .local _ .vmem, ⟨22, _⟩ => ⟨S8192, .f32⟩
  | .local _ .vmem, ⟨23, _⟩ => ⟨S8192, .f32⟩
  | .local _ .vmem, ⟨24, _⟩ => ⟨S8192, .f32⟩
  | .local _ .vmem, ⟨25, _⟩ => ⟨S8192, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_c_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_9 : Ref sig .tc := ⟨.hbm, 60, rfl⟩
abbrev main_v36 : Ref sig .tc := ⟨.hbm, 61, rfl⟩
abbrev main_v37 : Ref sig .tc := ⟨.hbm, 62, rfl⟩
abbrev main_c_10 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_11 : Ref sig .tc := ⟨.hbm, 69, rfl⟩
abbrev main_v43 : Ref sig .tc := ⟨.hbm, 70, rfl⟩
abbrev main_v44 : Ref sig .tc := ⟨.hbm, 71, rfl⟩
abbrev main_c_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_13 : Ref sig .tc := ⟨.hbm, 78, rfl⟩
abbrev main_v50 : Ref sig .tc := ⟨.hbm, 79, rfl⟩
abbrev main_v51 : Ref sig .tc := ⟨.hbm, 80, rfl⟩
abbrev main_c_14 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_15 : Ref sig .tc := ⟨.hbm, 87, rfl⟩
abbrev main_v57 : Ref sig .tc := ⟨.hbm, 88, rfl⟩
abbrev main_v58 : Ref sig .tc := ⟨.hbm, 89, rfl⟩
abbrev main_c_16 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_17 : Ref sig .tc := ⟨.hbm, 96, rfl⟩
abbrev main_v64 : Ref sig .tc := ⟨.hbm, 97, rfl⟩
abbrev main_v65 : Ref sig .tc := ⟨.hbm, 98, rfl⟩
abbrev main_c_18 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_19 : Ref sig .tc := ⟨.hbm, 105, rfl⟩
abbrev main_call0_v0 : Ref sig .tc := ⟨.hbm, 106, rfl⟩
abbrev main_v71 : Ref sig .tc := ⟨.hbm, 107, rfl⟩
abbrev main_c_20 : Ref sig .tc := ⟨.hbm, 108, rfl⟩
abbrev main_call1_v0 : Ref sig .tc := ⟨.hbm, 109, rfl⟩
abbrev main_v72 : Ref sig .tc := ⟨.hbm, 110, rfl⟩
abbrev main_c_21 : Ref sig .tc := ⟨.hbm, 111, rfl⟩
abbrev main_call2_v0 : Ref sig .tc := ⟨.hbm, 112, rfl⟩
abbrev main_v73 : Ref sig .tc := ⟨.hbm, 113, rfl⟩
abbrev main_c_22 : Ref sig .tc := ⟨.hbm, 114, rfl⟩
abbrev main_call3_v0 : Ref sig .tc := ⟨.hbm, 115, rfl⟩
abbrev main_v74 : Ref sig .tc := ⟨.hbm, 116, rfl⟩
abbrev main_c_23 : Ref sig .tc := ⟨.hbm, 117, rfl⟩
abbrev main_call4_v0 : Ref sig .tc := ⟨.hbm, 118, rfl⟩
abbrev main_v75 : Ref sig .tc := ⟨.hbm, 119, rfl⟩
abbrev main_c_24 : Ref sig .tc := ⟨.hbm, 120, rfl⟩
abbrev main_call5_v0 : Ref sig .tc := ⟨.hbm, 121, rfl⟩
abbrev main_v76 : Ref sig .tc := ⟨.hbm, 122, rfl⟩
abbrev main_c_25 : Ref sig .tc := ⟨.hbm, 123, rfl⟩
abbrev main_call6_v0 : Ref sig .tc := ⟨.hbm, 124, rfl⟩
abbrev main_v77 : Ref sig .tc := ⟨.hbm, 125, rfl⟩
abbrev main_c_26 : Ref sig .tc := ⟨.hbm, 126, rfl⟩
abbrev main_call7_v0 : Ref sig .tc := ⟨.hbm, 127, rfl⟩
abbrev main_v78 : Ref sig .tc := ⟨.hbm, 128, rfl⟩
abbrev main_v79_0 : Ref sig .tc := ⟨.hbm, 129, rfl⟩
abbrev main_v79_1 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![123], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 1 → Nat :=
  let arg0 : BitVec 32 := BitVec.ofNat 32 (i 0).val
  let c0_i32 : BitVec 32 := 0#32
  ![arg0.toNat]

def cc1_transform_5 (i : grid1.Coords) : Fin 1 → Nat :=
  let arg0 : BitVec 32 := BitVec.ofNat 32 (i 0).val
  let c0_i32 : BitVec 32 := 0#32
  ![arg0.toNat]

def cc1_transform_6 (i : grid1.Coords) : Fin 1 → Nat :=
  let arg0 : BitVec 32 := BitVec.ofNat 32 (i 0).val
  let c0_i32 : BitVec 32 := 0#32
  ![arg0.toNat]

def cc1_transform_7 (i : grid1.Coords) : Fin 1 → Nat :=
  let arg0 : BitVec 32 := BitVec.ofNat 32 (i 0).val
  let c0_i32 : BitVec 32 := 0#32
  ![arg0.toNat]

def cc1_transform_8 (i : grid1.Coords) : Fin 1 → Nat :=
  let arg0 : BitVec 32 := BitVec.ofNat 32 (i 0).val
  let c0_i32 : BitVec 32 := 0#32
  ![arg0.toNat]

def cc1_transform_9 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8192 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8192 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8192 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  pads_S1000000x128_S1007616x128_076160_000 : S1000000x128.Pads (![0, 0] : Fin 2 → Nat) ![7616, 0] ![0, 0] S1007616x128
  h_S_ : 0 < S_.numel
  pads_S1000000_S1007616_076160 : S1000000.Pads (![0] : Fin 1 → Nat) ![7616] ![0] S1007616
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  inb_S8192_S8192_0 : ∀ a, (![0] : Fin 1 → Nat) a + S8192.size a ≤ S8192.size a
  h_S8192 : 0 < S8192.numel
  shapeCasts_S8192_S8192 : S8192.ShapeCasts S8192
  slices_S1007616_S1000000_0 : S1007616.Slices ![0] S1000000
  bcast_S1000000_S1x1000000_1 : S1000000.BroadcastsInDim S1x1000000 (![1] : Fin 1 → Fin S1x1000000.rank)
  concatenates_S1x1000000_S1x1000000_S2x1000000_d0 : Shape.Concatenates [S1x1000000, S1x1000000] S2x1000000 0
  dot_S2000x128_S128x128_S2000x128_1_0_0_1_n_n_wf : DotDims.WF S2000x128 S128x128 S2000x128 [1] [0] [0] [1] [] []
  gather_S100000_S1000000x1_S1000000_n_0_n_n_0_1_1_wf : GatherDims.WF S100000 S1000000x1 S1000000 [] [0] [] [0] [] 1 ![1]
  gather_S20000_S1000000x1_S1000000_n_0_n_n_0_1_1_wf : GatherDims.WF S20000 S1000000x1 S1000000 [] [0] [] [0] [] 1 ![1]
  gather_S100000x128_S1000000x1_S1000000x128_1_0_n_n_0_1_1128_wf : GatherDims.WF S100000x128 S1000000x1 S1000000x128 [1] [0] [] [0] [] 1 ![1, 128]
  gather_S20000x128_S1000000x1_S1000000x128_1_0_n_n_0_1_1128_wf : GatherDims.WF S20000x128 S1000000x1 S1000000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S20000x128.size a
  hwx0_3 : ∀ i : grid0.Coords, EltTy.bits .f32 = 32 ∨ (Rect.block (s := S20000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S1007616x128.size a
  hwx1_0 : ∀ i : grid1.Coords, EltTy.bits .f32 = 32 ∨ (Rect.block (s := S1007616x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S1007616x128.size a
  hwx1_1 : ∀ i : grid1.Coords, EltTy.bits .f32 = 32 ∨ (Rect.block (s := S1007616x128) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192.size a ≤ S1007616.size a
  hwx1_2 : ∀ i : grid1.Coords, EltTy.bits .f32 = 32 ∨ (Rect.block (s := S1007616) S8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192.size a ≤ S1007616.size a
  hwx1_3 : ∀ i : grid1.Coords, EltTy.bits .f32 = 32 ∨ (Rect.block (s := S1007616) S8192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8192.size a ≤ S1007616.size a
  hwx1_4 : ∀ i : grid1.Coords, EltTy.bits .f32 = 32 ∨ (Rect.block (s := S1007616) S8192.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192.size a ≤ S1007616.size a
  hwx1_5 : ∀ i : grid1.Coords, EltTy.bits .f32 = 32 ∨ (Rect.block (s := S1007616) S8192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8192.size a ≤ S1007616.size a
  hwx1_6 : ∀ i : grid1.Coords, EltTy.bits .f32 = 32 ∨ (Rect.block (s := S1007616) S8192.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8192.size a ≤ S1007616.size a
  hwx1_7 : ∀ i : grid1.Coords, EltTy.bits .f32 = 32 ∨ (Rect.block (s := S1007616) S8192.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8192.size a ≤ S1007616.size a
  hwx1_8 : ∀ i : grid1.Coords, EltTy.bits .f32 = 32 ∨ (Rect.block (s := S1007616) S8192.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8192.size a ≤ S1007616.size a
  hwx1_9 : ∀ i : grid1.Coords, EltTy.bits .f32 = 32 ∨ (Rect.block (s := S1007616) S8192.size (cc1_transform_9 i) (hinb1_9 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S20000_S1000000x1_S1000000_n_0_n_n_0_1_1 : GatherDims S20000 S1000000x1 S1000000 where
  offsetDims := []
  collapsedSliceDims := [0]
  operandBatchingDims := []
  startIndicesBatchingDims := []
  startIndexMap := [0]
  indexVectorDim := 1
  sliceSizes := ![1]
  wf := gather_S20000_S1000000x1_S1000000_n_0_n_n_0_1_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v71) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v72) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v73) S8192.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v74) S8192.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v75) S8192.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v76) S8192.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v77) S8192.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v78) S8192.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v79_0) S8192.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v79_1) S8192.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S100000 : Shape := ⟨1, ![100000]⟩
abbrev S20000 : Shape := ⟨1, ![20000]⟩
abbrev S1000000 : Shape := ⟨1, ![1000000]⟩
abbrev S1x128 : Shape := ⟨2, ![1, 128]⟩
abbrev S_ : Shape := ⟨0, ![]⟩
abbrev S1000000x1 : Shape := ⟨2, ![1000000, 1]⟩
abbrev S1000000x128 : Shape := ⟨2, ![1000000, 128]⟩
abbrev S1x1000000 : Shape := ⟨2, ![1, 1000000]⟩
abbrev S2x1000000 : Shape := ⟨2, ![2, 1000000]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S128x128, .f32⟩
  | .hbm, ⟨3, _⟩ => ⟨S128, .f32⟩
  | .hbm, ⟨4, _⟩ => ⟨S100000, .f32⟩
  | .hbm, ⟨5, _⟩ => ⟨S100000, .f32⟩
  | .hbm, ⟨6, _⟩ => ⟨S100000, .f32⟩
  | .hbm, ⟨7, _⟩ => ⟨S20000, .f32⟩
  | .hbm, ⟨8, _⟩ => ⟨S20000, .f32⟩
  | .hbm, ⟨9, _⟩ => ⟨S20000, .f32⟩
  | .hbm, ⟨10, _⟩ => ⟨S1000000, .i32⟩
  | .hbm, ⟨11, _⟩ => ⟨S1000000, .i32⟩
  | .hbm, ⟨12, _⟩ => ⟨S100000, .i32⟩
  | .hbm, ⟨13, _⟩ => ⟨S20000, .i32⟩
  | .hbm, ⟨14, _⟩ => ⟨S20000x128, .f32⟩
  | .hbm, ⟨15, _⟩ => ⟨S1x128, .f32⟩
  | .hbm, ⟨16, _⟩ => ⟨S20000x128, .f32⟩
  | .hbm, ⟨17, _⟩ => ⟨S20000x128, .f32⟩
  | .hbm, ⟨18, _⟩ => ⟨S_, .f32⟩
  | .hbm, ⟨19, _⟩ => ⟨S20000x128, .f32⟩
  | .hbm, ⟨20, _⟩ => ⟨S20000x128, .i1⟩
  | .hbm, ⟨21, _⟩ => ⟨S_, .f32⟩
  | .hbm, ⟨22, _⟩ => ⟨S20000x128, .f32⟩
  | .hbm, ⟨23, _⟩ => ⟨S20000x128, .f32⟩
  | .hbm, ⟨24, _⟩ => ⟨S20000x128, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S1000000x1, .i32⟩
  | .hbm, ⟨33, _⟩ => ⟨S1000000x128, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000x128, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000, .i32⟩
  | .hbm, ⟨52, _⟩ => ⟨S_, .i32⟩
  | .hbm, ⟨53, _⟩ => ⟨S1000000, .i32⟩
  | .hbm, ⟨54, _⟩ => ⟨S1000000, .i1⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S1000000, .i32⟩
  | .hbm, ⟨59, _⟩ => ⟨S1000000x1, .i32⟩
  | .hbm, ⟨60, _⟩ => ⟨S1000000, .i32⟩
  | .hbm, ⟨61, _⟩ => ⟨S_, .i32⟩
  | .hbm, ⟨62, _⟩ => ⟨S1000000, .i32⟩
  | .hbm, ⟨63, _⟩ => ⟨S1000000, .i1⟩
  | .hbm, ⟨64, _⟩ => ⟨S_, .i32⟩
  | .hbm, ⟨65, _⟩ => ⟨S1000000, .i32⟩
  | .hbm, ⟨66, _⟩ => ⟨S1000000, .i32⟩
  | .hbm, ⟨67, _⟩ => ⟨S1000000, .i32⟩
  | .hbm, ⟨68, _⟩ => ⟨S1000000x1, .i32⟩
  | .hbm, ⟨69, _⟩ => ⟨S1000000, .f32⟩
  | .hbm, ⟨70, _⟩ => ⟨S_, .i32⟩
  | .hbm, ⟨71, _⟩ => ⟨S1000000, .i32⟩
  | .hbm, ⟨72, _⟩ => ⟨S1000000, .i1⟩
  | .hbm, ⟨73, _⟩ => ⟨S_, .i32⟩
  | .hbm, ⟨74, _⟩ => ⟨S1000000, .i32⟩
  | .hbm, ⟨75, _⟩ => ⟨S1000000, .i32⟩
  | .hbm, ⟨76, _⟩ => ⟨S1000000, .i32⟩
  | .hbm, ⟨77, _⟩ => ⟨S1000000x1, .i32⟩
  | .hbm, ⟨78, _⟩ => ⟨S1000000, .f32⟩
  | .hbm, ⟨79, _⟩ => ⟨S_, .i32⟩
  | .hbm, ⟨80, _⟩ => ⟨S1000000, .i32⟩
  | .hbm, ⟨81, _⟩ => ⟨S1000000, .i1⟩
  | .hbm, ⟨82, _⟩ => ⟨S_, .i32⟩
  | .hbm, ⟨83, _⟩ => ⟨S1000000, .i32⟩
  | .hbm, ⟨84, _⟩ => ⟨S1000000, .i32⟩
  | .hbm, ⟨85, _⟩ => ⟨S1000000, .i32⟩
  | .hbm, ⟨86, _⟩ => ⟨S1000000x1, .i32⟩
  | .hbm, ⟨87, _⟩ => ⟨S1000000, .f32⟩
  | .hbm, ⟨88, _⟩ => ⟨S_, .i32⟩
  | .hbm, ⟨89, _⟩ => ⟨S1000000, .i32⟩
  | .hbm, ⟨90, _⟩ => ⟨S1000000, .i1⟩
  | .hbm, ⟨91, _⟩ => ⟨S_, .i32⟩
  | .hbm, ⟨92, _⟩ => ⟨S1000000, .i32⟩
  | .hbm, ⟨93, _⟩ => ⟨S1000000, .i32⟩
  | .hbm, ⟨94, _⟩ => ⟨S1000000, .i32⟩
  | .hbm, ⟨95, _⟩ => ⟨S1000000x1, .i32⟩
  | .hbm, ⟨96, _⟩ => ⟨S1000000, .f32⟩
  | .hbm, ⟨97, _⟩ => ⟨S_, .i32⟩
  | .hbm, ⟨98, _⟩ => ⟨S1000000, .i32⟩
  | .hbm, ⟨99, _⟩ => ⟨S1000000, .i1⟩
  | .hbm, ⟨100, _⟩ => ⟨S_, .i32⟩
  | .hbm, ⟨101, _⟩ => ⟨S1000000, .i32⟩
  | .hbm, ⟨102, _⟩ => ⟨S1000000, .i32⟩
  | .hbm, ⟨103, _⟩ => ⟨S1000000, .i32⟩
  | .hbm, ⟨104, _⟩ => ⟨S1000000x1, .i32⟩
  | .hbm, ⟨105, _⟩ => ⟨S1000000, .f32⟩
  | .hbm, ⟨106, _⟩ => ⟨S_, .i32⟩
  | .hbm, ⟨107, _⟩ => ⟨S1000000, .i32⟩
  | .hbm, ⟨108, _⟩ => ⟨S1000000, .i1⟩
  | .hbm, ⟨109, _⟩ => ⟨S_, .i32⟩
  | .hbm, ⟨110, _⟩ => ⟨S1000000, .i32⟩
  | .hbm, ⟨111, _⟩ => ⟨S1000000, .i32⟩
  | .hbm, ⟨112, _⟩ => ⟨S1000000, .i32⟩
  | .hbm, ⟨113, _⟩ => ⟨S1000000x1, .i32⟩
  | .hbm, ⟨114, _⟩ => ⟨S1000000, .f32⟩
  | .hbm, ⟨115, _⟩ => ⟨S1000000x128, .f32⟩
  | .hbm, ⟨116, _⟩ => ⟨S_, .f32⟩
  | .hbm, ⟨117, _⟩ => ⟨S1000000, .f32⟩
  | .hbm, ⟨118, _⟩ => ⟨S1000000, .f32⟩
  | .hbm, ⟨119, _⟩ => ⟨S1000000, .f32⟩
  | .hbm, ⟨120, _⟩ => ⟨S1000000, .f32⟩
  | .hbm, ⟨121, _⟩ => ⟨S1000000, .f32⟩
  | .hbm, ⟨122, _⟩ => ⟨S1000000, .f32⟩
  | .hbm, ⟨123, _⟩ => ⟨S1x1000000, .f32⟩
  | .hbm, ⟨124, _⟩ => ⟨S1x1000000, .f32⟩
  | .hbm, ⟨125, _⟩ => ⟨S2x1000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_v4 : Ref sig .tc := ⟨.hbm, 24, rfl⟩
abbrev main_c : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c_1 : Ref sig .tc := ⟨.hbm, 34, rfl⟩
abbrev main_v12 : Ref sig .tc := ⟨.hbm, 35, rfl⟩
abbrev main_v13 : Ref sig .tc := ⟨.hbm, 36, rfl⟩
abbrev main_c_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_c_8 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_9 : Ref sig .tc := ⟨.hbm, 70, rfl⟩
abbrev main_v40 : Ref sig .tc := ⟨.hbm, 71, rfl⟩
abbrev main_v41 : Ref sig .tc := ⟨.hbm, 72, rfl⟩
abbrev main_c_10 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_11 : Ref sig .tc := ⟨.hbm, 79, rfl⟩
abbrev main_v47 : Ref sig .tc := ⟨.hbm, 80, rfl⟩
abbrev main_v48 : Ref sig .tc := ⟨.hbm, 81, rfl⟩
abbrev main_c_12 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_c_13 : Ref sig .tc := ⟨.hbm, 88, rfl⟩
abbrev main_v54 : Ref sig .tc := ⟨.hbm, 89, rfl⟩
abbrev main_v55 : Ref sig .tc := ⟨.hbm, 90, rfl⟩
abbrev main_c_14 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_c_15 : Ref sig .tc := ⟨.hbm, 97, rfl⟩
abbrev main_v61 : Ref sig .tc := ⟨.hbm, 98, rfl⟩
abbrev main_v62 : Ref sig .tc := ⟨.hbm, 99, rfl⟩
abbrev main_c_16 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_17 : Ref sig .tc := ⟨.hbm, 106, rfl⟩
abbrev main_v68 : Ref sig .tc := ⟨.hbm, 107, rfl⟩
abbrev main_v69 : Ref sig .tc := ⟨.hbm, 108, rfl⟩
abbrev main_c_18 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x128_S1000000_d1 : S1000000x128.ReducesTo [1] S1000000
  h_S_ : 0 < S_.numel
  bcast_S1000000_S1x1000000_1 : S1000000.BroadcastsInDim S1x1000000 (![1] : Fin 1 → Fin S1x1000000.rank)
  concatenates_S1x1000000_S1x1000000_S2x1000000_d0 : Shape.Concatenates [S1x1000000, S1x1000000] S2x1000000 0
  dot_S20000x128_S128x128_S20000x128_1_0_0_1_n_n_wf : DotDims.WF S20000x128 S128x128 S20000x128 [1] [0] [0] [1] [] []
  gather_S100000x128_S1000000x1_S1000000x128_1_0_n_n_0_1_1128_wf : GatherDims.WF S100000x128 S1000000x1 S1000000x128 [1] [0] [] [0] [] 1 ![1, 128]
  gather_S20000x128_S1000000x1_S1000000x128_1_0_n_n_0_1_1128_wf : GatherDims.WF S20000x128 S1000000x1 S1000000x128 [1] [0] [] [0] [] 1 ![1, 128]
  gather_S100000_S1000000x1_S1000000_n_0_n_n_0_1_1_wf : GatherDims.WF S100000 S1000000x1 S1000000 [] [0] [] [0] [] 1 ![1]
  gather_S20000_S1000000x1_S1000000_n_0_n_n_0_1_1_wf : GatherDims.WF S20000 S1000000x1 S1000000 [] [0] [] [0] [] 1 ![1]

variable [Facts₀]

def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S20000_S1000000x1_S1000000_n_0_n_n_0_1_1 : GatherDims S20000 S1000000x1 S1000000 where
  offsetDims := []
  collapsedSliceDims := [0]
  operandBatchingDims := []
  startIndicesBatchingDims := []
  startIndexMap := [0]
  indexVectorDim := 1
  sliceSizes := ![1]
  wf := gather_S20000_S1000000x1_S1000000_n_0_n_n_0_1_1_wf

class Facts : Prop extends Facts₀ where

variable [Facts]
-- ==== Proof.KSpec.lean ====
/-
  The kernel's entry point looks the per-edge operands up on the host exactly as the reference does — the
  index normalisation (a negative index counts from the end), the row lookups u = cell_z[src] and
  v = proj[dst], the six per-edge scalars through the node-id tables —, pads each of them with 7616 zero
  edges to a whole number of 8192-edge blocks, and hands the padded arrays to the combine kernel. This
  module names those stages as whole-array functions, over this program's own shape and lookup records.
-/
import proofs.«411593_j1855425872454_3_alg».proof.KernelIdeal
import Idealize.ShloMosaic.Lib.ValueIdx
import Idealize.ShloMosaic.PureOps.Ideal

noncomputable section

namespace Cert.KernelIdeal.KValue

open Cert.KernelIdeal Idealize.ShloMosaic Idealize.SL.Sem

variable {F : FTy → Type} [FloatOps F] [Facts]
open Facts₀ Facts

/-- jnp's index normalisation of a vector of indices into an axis of extent `N`: a negative index has `N`
    added; the result as a one-column matrix, the form the lookup takes. -/
def normIdx (N : BitVec 32) (x : (⟨S1000000, .i32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F))
    ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
      ((cmpi .slt : (⟨S1000000, .i32⟩ : BufTy).Contents (Elt F) → (⟨S1000000, .i32⟩ : BufTy).Contents (Elt F) → (⟨S1000000, .i1⟩ : BufTy).Contents (Elt F)) x
        ((broadcastInDim S1000000 ![] bcast_S_S1000000 : (⟨S_, .i32⟩ : BufTy).Contents (Elt F) → (⟨S1000000, .i32⟩ : BufTy).Contents (Elt F)) (constantI S_ 32 0#32)))
      ((addi : (⟨S1000000, .i32⟩ : BufTy).Contents (Elt F) → (⟨S1000000, .i32⟩ : BufTy).Contents (Elt F) → (⟨S1000000, .i32⟩ : BufTy).Contents (Elt F)) x
        ((broadcastInDim S1000000 ![] bcast_S_S1000000 : (⟨S_, .i32⟩ : BufTy).Contents (Elt F) → (⟨S1000000, .i32⟩ : BufTy).Contents (Elt F)) (constantI S_ 32 N)))
      x)

/-- Rows of the cell embedding table, one per edge. -/
def rowsC (x : (⟨S100000x128, .f32⟩ : BufTy).Contents (Elt F)) (i : (⟨S1000000x1, .i32⟩ : BufTy).Contents (Elt F)) : (⟨S1000000x128, .f32⟩ : BufTy).Contents (Elt F) :=
  Host.gather gather_S100000x128_S1000000x1_S1000000x128_1_0_n_n_0_1_1128 x i

/-- Rows of the projected gene embedding table, one per edge. -/
def rowsG (x : (⟨S20000x128, .f32⟩ : BufTy).Contents (Elt F)) (i : (⟨S1000000x1, .i32⟩ : BufTy).Contents (Elt F)) : (⟨S1000000x128, .f32⟩ : BufTy).Contents (Elt F) :=
  Host.gather gather_S20000x128_S1000000x1_S1000000x128_1_0_n_n_0_1_1128 x i

/-- Entries of a per-cell vector, one per edge. -/
def takeC {e : EltTy} (x : (⟨S100000, e⟩ : BufTy).Contents (Elt F)) (i : (⟨S1000000x1, .i32⟩ : BufTy).Contents (Elt F)) : (⟨S1000000, e⟩ : BufTy).Contents (Elt F) :=
  Host.gather gather_S100000_S1000000x1_S1000000_n_0_n_n_0_1_1 x i

/-- Entries of a per-gene vector, one per edge. -/
def takeG {e : EltTy} (x : (⟨S20000, e⟩ : BufTy).Contents (Elt F)) (i : (⟨S1000000x1, .i32⟩ : BufTy).Contents (Elt F)) : (⟨S1000000, e⟩ : BufTy).Contents (Elt F) :=
  Host.gather gather_S20000_S1000000x1_S1000000_n_0_n_n_0_1_1 x i

/-- The padding value: the integer 0 converted to a float. -/
def padVal : (⟨S_, .f32⟩ : BufTy).Contents (Elt F) :=
  (sitofp .f32 : (⟨S_, .i32⟩ : BufTy).Contents (Elt F) → (⟨S_, .f32⟩ : BufTy).Contents (Elt F)) (constantI S_ 32 0#32)

/-- A per-edge matrix of rows padded with 7616 rows at the end. -/
def padRows (x : (⟨S1000000x128, .f32⟩ : BufTy).Contents (Elt F)) : (⟨S1007616x128, .f32⟩ : BufTy).Contents (Elt F) :=
  pad S1007616x128 ![0, 0] ![7616, 0] ![0, 0] x padVal pads_S1000000x128_S1007616x128_076160_000 h_S_

/-- A per-edge vector padded with 7616 entries at the end. -/
def padVec (x : (⟨S1000000, .f32⟩ : BufTy).Contents (Elt F)) : (⟨S1007616, .f32⟩ : BufTy).Contents (Elt F) :=
  pad S1007616 ![0] ![7616] ![0] x padVal pads_S1000000_S1007616_076160 h_S_

/-- The last host operations: the first million entries of each of the two padded result vectors, the first
    stacked over the second. -/
def stack (loc std : (⟨S1007616, .f32⟩ : BufTy).Contents (Elt F)) : (⟨S2x1000000, .f32⟩ : BufTy).Contents (Elt F) :=
  concatenate S2x1000000 0
    [⟨S1x1000000, (broadcastInDim S1x1000000 ![1] bcast_S1000000_S1x1000000_1 : (⟨S1000000, .f32⟩ : BufTy).Contents (Elt F) → (⟨S1x1000000, .f32⟩ : BufTy).Contents (Elt F))
        ((extractStridedSlice S1000000 ![0] · slices_S1007616_S1000000_0 : (⟨S1007616, .f32⟩ : BufTy).Contents (Elt F) → (⟨S1000000, .f32⟩ : BufTy).Contents (Elt F)) loc)⟩,
     ⟨S1x1000000, (broadcastInDim S1x1000000 ![1] bcast_S1000000_S1x1000000_1 : (⟨S1000000, .f32⟩ : BufTy).Contents (Elt F) → (⟨S1x1000000, .f32⟩ : BufTy).Contents (Elt F))
        ((extractStridedSlice S1000000 ![0] · slices_S1007616_S1000000_0 : (⟨S1007616, .f32⟩ : BufTy).Contents (Elt F) → (⟨S1000000, .f32⟩ : BufTy).Contents (Elt F)) std)⟩]
    concatenates_S1x1000000_S1x1000000_S2x1000000_d0

/-- What the combine kernel leaves in its first result, entry by entry, as a function of its six padded
    operands: the dot product of the edge's two rows, times the two scales, plus the two biases. -/
def locP (u v : (⟨S1007616x128, .f32⟩ : BufTy).Contents (Elt Ideal)) (ssc dsc sb db : (⟨S1007616, .f32⟩ : BufTy).Contents (Elt Ideal)) :
    (⟨S1007616, .f32⟩ : BufTy).Contents (Elt Ideal) :=
  fun i => (((∑ k : Fin 128, u (ValueIdx.ix2 (i 0) k) * v (ValueIdx.ix2 (i 0) k)) * ssc i) * dsc i + sb i) + db i

/-- What the combine kernel leaves in its second result: the product of the two deviations. -/
def stdP (ssd dsd : (⟨S1007616, .f32⟩ : BufTy).Contents (Elt Ideal)) : (⟨S1007616, .f32⟩ : BufTy).Contents (Elt Ideal) :=
  fun i => ssd i * dsd i

end Cert.KernelIdeal.KValue

end
-- ==== Proof.RefSpec.lean ====
/-
  The reference computes, per edge e of a bipartite cell–gene graph,
    loc e = ((∑ k, u e k * v e k) * s_sc e) * d_sc e + s_b e + d_b e,   std e = s_sd e * d_sd e,
  where u = cell_z[src], v = leaky_relu(gene_z · W + b)[dst], and the six per-edge scalars are looked up
  through the node-id tables. This module names the stages of that computation as whole-array functions
  of the argument arrays, so that the run of the program and the comparison with the kernel can be stated
  over the SAME terms: the index normalisation (a negative index counts from the end), the row and element
  lookups, the projection of the gene embeddings, and the closing arithmetic that stacks loc over std.
-/
import proofs.«411593_j1855425872454_3_alg».proof.ReferenceIdeal

noncomputable section

namespace Cert.ReferenceIdeal.RefValue

open Cert.ReferenceIdeal Idealize.ShloMosaic Idealize.SL.Sem

variable {F : FTy → Type} [FloatOps F] [Facts]
open Facts₀ Facts

/-- jnp's index normalisation of a vector of indices into an axis of extent `N`: a negative index has `N`
    added; the result as a one-column matrix, the form the lookup takes. -/
def normIdx (N : BitVec 32) (x : (⟨S1000000, .i32⟩ : BufTy).Contents (Elt F)) : (⟨S1000000x1, .i32⟩ : BufTy).Contents (Elt F) :=
  (broadcastInDim S1000000x1 ![0] bcast_S1000000_S1000000x1_0 : (⟨S1000000, .i32⟩ : BufTy).Contents (Elt F) → (⟨S1000000x1, .i32⟩ : BufTy).Contents (Elt F))
    ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
      ((cmpi .slt : (⟨S1000000, .i32⟩ : BufTy).Contents (Elt F) → (⟨S1000000, .i32⟩ : BufTy).Contents (Elt F) → (⟨S1000000, .i1⟩ : BufTy).Contents (Elt F)) x
        ((broadcastInDim S1000000 ![] bcast_S_S1000000 : (⟨S_, .i32⟩ : BufTy).Contents (Elt F) → (⟨S1000000, .i32⟩ : BufTy).Contents (Elt F)) (constantI S_ 32 0#32)))
      ((addi : (⟨S1000000, .i32⟩ : BufTy).Contents (Elt F) → (⟨S1000000, .i32⟩ : BufTy).Contents (Elt F) → (⟨S1000000, .i32⟩ : BufTy).Contents (Elt F)) x
        ((broadcastInDim S1000000 ![] bcast_S_S1000000 : (⟨S_, .i32⟩ : BufTy).Contents (Elt F) → (⟨S1000000, .i32⟩ : BufTy).Contents (Elt F)) (constantI S_ 32 N)))
      x)

/-- Rows of the cell embedding table, one per edge. -/
def rowsC (x : (⟨S100000x128, .f32⟩ : BufTy).Contents (Elt F)) (i : (⟨S1000000x1, .i32⟩ : BufTy).Contents (Elt F)) : (⟨S1000000x128, .f32⟩ : BufTy).Contents (Elt F) :=
  Host.gather gather_S100000x128_S1000000x1_S1000000x128_1_0_n_n_0_1_1128 x i

/-- Rows of the projected gene embedding table, one per edge. -/
def rowsG (x : (⟨S20000x128, .f32⟩ : BufTy).Contents (Elt F)) (i : (⟨S1000000x1, .i32⟩ : BufTy).Contents (Elt F)) : (⟨S1000000x128, .f32⟩ : BufTy).Contents (Elt F) :=
  Host.gather gather_S20000x128_S1000000x1_S1000000x128_1_0_n_n_0_1_1128 x i

/-- Entries of a per-cell vector, one per edge. -/
def takeC {e : EltTy} (x : (⟨S100000, e⟩ : BufTy).Contents (Elt F)) (i : (⟨S1000000x1, .i32⟩ : BufTy).Contents (Elt F)) : (⟨S1000000, e⟩ : BufTy).Contents (Elt F) :=
  Host.gather gather_S100000_S1000000x1_S1000000_n_0_n_n_0_1_1 x i

/-- Entries of a per-gene vector, one per edge. -/
def takeG {e : EltTy} (x : (⟨S20000, e⟩ : BufTy).Contents (Elt F)) (i : (⟨S1000000x1, .i32⟩ : BufTy).Contents (Elt F)) : (⟨S1000000, e⟩ : BufTy).Contents (Elt F) :=
  Host.gather gather_S20000_S1000000x1_S1000000_n_0_n_n_0_1_1 x i

/-- leaky_relu with slope f32(0.01): y where y ≥ 0, the slope times y elsewhere. -/
def leaky (y : (⟨S20000x128, .f32⟩ : BufTy).Contents (Elt F)) : (⟨S20000x128, .f32⟩ : BufTy).Contents (Elt F) :=
  select
    (cmpf .oge y ((broadcastInDim S20000x128 ![] bcast_S_S20000x128 : (⟨S_, .f32⟩ : BufTy).Contents (Elt F) → (⟨S20000x128, .f32⟩ : BufTy).Contents (Elt F)) (constant S_ .f32 0x00000000#32)))
    y
    (mulf ((broadcastInDim S20000x128 ![] bcast_S_S20000x128 : (⟨S_, .f32⟩ : BufTy).Contents (Elt F) → (⟨S20000x128, .f32⟩ : BufTy).Contents (Elt F)) (constant S_ .f32 0x3C23D70A#32)) y)

/-- The projected gene embeddings: leaky_relu (gene_z · W + b), b broadcast down the rows. -/
def geneProj (x : (⟨S20000x128, .f32⟩ : BufTy).Contents (Elt F)) (w : (⟨S128x128, .f32⟩ : BufTy).Contents (Elt F)) (b : (⟨S128, .f32⟩ : BufTy).Contents (Elt F)) : (⟨S20000x128, .f32⟩ : BufTy).Contents (Elt F) :=
  leaky (addf (Host.dotGeneral dot_S20000x128_S128x128_S20000x128_1_0_0_1_n_n none x w)
    ((broadcastInDim S20000x128 ![0, 1] bcast_S1x128_S20000x128_0_1 : (⟨S1x128, .f32⟩ : BufTy).Contents (Elt F) → (⟨S20000x128, .f32⟩ : BufTy).Contents (Elt F))
      ((broadcastInDim S1x128 ![1] bcast_S128_S1x128_1 : (⟨S128, .f32⟩ : BufTy).Contents (Elt F) → (⟨S1x128, .f32⟩ : BufTy).Contents (Elt F)) b)))

/-- The closing arithmetic: per edge the dot product of the two rows, scaled and shifted, stacked over the
    product of the two deviations. -/
def tail (u v : (⟨S1000000x128, .f32⟩ : BufTy).Contents (Elt F)) (ssc sb ssd dsc db dsd : (⟨S1000000, .f32⟩ : BufTy).Contents (Elt F)) : (⟨S2x1000000, .f32⟩ : BufTy).Contents (Elt F) :=
  concatenate S2x1000000 0
    [⟨S1x1000000, (broadcastInDim S1x1000000 ![1] bcast_S1000000_S1x1000000_1 : (⟨S1000000, .f32⟩ : BufTy).Contents (Elt F) → (⟨S1x1000000, .f32⟩ : BufTy).Contents (Elt F))
        (addf (addf (mulf (mulf (Host.reduceAdd (mulf u v) (constant S_ .f32 0x00000000#32) reducesTo_S1000000x128_S1000000_d1 h_S_) ssc) dsc) sb) db)⟩,
     ⟨S1x1000000, (broadcastInDim S1x1000000 ![1] bcast_S1000000_S1x1000000_1 : (⟨S1000000, .f32⟩ : BufTy).Contents (Elt F) → (⟨S1x1000000, .f32⟩ : BufTy).Contents (Elt F))
        (mulf ssd dsd)⟩]
    concatenates_S1x1000000_S1x1000000_S2x1000000_d0

/-- The reference's result as one function of the fourteen argument arrays. -/
def result (a0 : (⟨S100000x128, .f32⟩ : BufTy).Contents (Elt F)) (a1 : (⟨S20000x128, .f32⟩ : BufTy).Contents (Elt F))
    (a2 : (⟨S128x128, .f32⟩ : BufTy).Contents (Elt F)) (a3 : (⟨S128, .f32⟩ : BufTy).Contents (Elt F))
    (a4 a5 a6 : (⟨S100000, .f32⟩ : BufTy).Contents (Elt F)) (a7 a8 a9 : (⟨S20000, .f32⟩ : BufTy).Contents (Elt F))
    (a10 a11 : (⟨S1000000, .i32⟩ : BufTy).Contents (Elt F)) (a12 : (⟨S100000, .i32⟩ : BufTy).Contents (Elt F))
    (a13 : (⟨S20000, .i32⟩ : BufTy).Contents (Elt F)) : (⟨S2x1000000, .f32⟩ : BufTy).Contents (Elt F) :=
  tail (rowsC a0 (normIdx 100000#32 a10)) (rowsG (geneProj a1 a2 a3) (normIdx 20000#32 a11))
    (takeC a4 (normIdx 100000#32 (takeC a12 (normIdx 100000#32 a10))))
    (takeC a5 (normIdx 100000#32 (takeC a12 (normIdx 100000#32 a10))))
    (takeC a6 (normIdx 100000#32 (takeC a12 (normIdx 100000#32 a10))))
    (takeG a7 (normIdx 20000#32 (takeG a13 (normIdx 20000#32 a11))))
    (takeG a8 (normIdx 20000#32 (takeG a13 (normIdx 20000#32 a11))))
    (takeG a9 (normIdx 20000#32 (takeG a13 (normIdx 20000#32 a11))))

end Cert.ReferenceIdeal.RefValue

end
-- ==== Proof.GeneProj.lean ====
/-
  The projection stage: proj = leaky (gene_z · W + b), with leaky y = y where y ≥ 0 and f32(0.01) · y elsewhere.

  The first kernel walks the 20000 rows of the gene embeddings in ten blocks of 2000 rows. At block t it holds rows
  2000·t … 2000·t + 1999 of gene_z together with the whole 128 × 128 weight matrix W and the whole bias b, and it
  writes back, as rows 2000·t … 2000·t + 1999 of its result, the matrix product of the block with W (after a change
  of float format that is the identity on the extended reals, accumulated into a zero matrix), plus b laid along every
  row, through leaky. The reference applies the same formula to the whole array at once.

  Both are read entry by entry, and both are the one function `projAt`: entry (r, j) is
      leaky (∑ k < 128, gene_z[r, k] · W[k, j] + b[j]).
  On the kernel's side: a matrix product into a zero accumulator is the bare sum over the contracted coordinate; the
  bias, recast as a single row and repeated down the rows, reads b[j]; row p of the block at grid point t is row
  2000·t + p of gene_z, while W and b are the same whole arrays at every point; and row r lies in the block of point
  r / 2000, so the ten write-backs fill the result array. On the reference's side: the host's product is the same sum
  over k, its two broadcasts of b read b[j], and the closing comparison and choice are the same. No algebraic law is
  needed: the two sums have the same terms in the same order, so nothing is asked of the inputs.
-/
import proofs.«411593_j1855425872454_3_alg».proof.Proof.Gen.KernelIdeal.Frame
import proofs.«411593_j1855425872454_3_alg».proof.Proof.Gen.ReferenceIdeal
import proofs.«411593_j1855425872454_3_alg».proof.Proof.KSpec
import proofs.«411593_j1855425872454_3_alg».proof.Proof.RefSpec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import Idealize.ShloMosaic.Lib.KernelVsHost

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx

namespace Proj

/-! ## The entry-level function both sides compute -/

/-- leaky_relu of one extended real: y itself where y ≥ 0, the slope f32(0.01) times y elsewhere. -/
def leakyAt (y : EReal) : EReal :=
  Scalar.select (FloatOps.cmpf (F := Ideal) (φ := .f32) .oge y (Ideal.ofBits .f32 0x00000000#32)) y
    (Ideal.ofBits .f32 0x3C23D70A#32 * y)

/-- Entry (r, j) of the projection of x by w and b: leaky (∑ k, x[r, k] · w[k, j] + b[j]). -/
def projAt (x : (⟨2, ![20000, 128]⟩ : Shape).Idx → EReal) (w : (⟨2, ![128, 128]⟩ : Shape).Idx → EReal)
    (b : (⟨1, ![128]⟩ : Shape).Idx → EReal) : (⟨2, ![20000, 128]⟩ : Shape).Idx → EReal :=
  fun i => leakyAt ((∑ k : Fin 128, x (ix2 (i 0) k) * w (ix2 k (i 1))) + b (ix1 (i 1)))

/-! ## A rows-by-columns product read at an entry -/

section Dot
variable {M K N : Nat} (wf : DotDims.WF ⟨2, ![M, K]⟩ ⟨2, ![K, N]⟩ ⟨2, ![M, N]⟩ [1] [0] [0] [1] [] [])

/-- The product of an M × K by a K × N matrix, the first contracted on its columns and the second on its rows, is at
    entry (a, b) the sum over c of A[a, c] · B[c, b]: the one-axis contraction index is its coordinate c, the left
    operand is read at (a, c) and the right one at (c, b). -/
theorem dot_apply {φ₁ φ₂ : FTy} (prec : Option ContractPrecision)
    (A : FVec Ideal ⟨2, ![M, K]⟩ φ₁) (B : FVec Ideal ⟨2, ![K, N]⟩ φ₂) (a : Fin M) (b : Fin N) :
    Host.dotGeneral (⟨[1], [0], [0], [1], [], [], wf⟩ : DotDims _ _ _) prec A B (ix2 a b) = ∑ c : Fin K, A (ix2 a c) * B (ix2 c b) := by
  show FloatOps.dotGeneral _ prec _ A B (ix2 a b) = _
  rw [Ideal.dotGeneral_apply, ← Equiv.sum_comp (contrEquiv1 (⟨[1], [0], [0], [1], [], [], wf⟩ : DotDims _ _ _) K rfl rfl).symm]
  refine Finset.sum_congr rfl fun c _ => ?_
  have c2 := contrEquiv1_symm_val (⟨[1], [0], [0], [1], [], [], wf⟩ : DotDims ⟨2, ![M, K]⟩ ⟨2, ![K, N]⟩ ⟨2, ![M, N]⟩) K rfl rfl c
  have l2 : (⟨[1], [0], [0], [1], [], [], wf⟩ : DotDims ⟨2, ![M, K]⟩ ⟨2, ![K, N]⟩ ⟨2, ![M, N]⟩).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], wf⟩ : DotDims ⟨2, ![M, K]⟩ ⟨2, ![K, N]⟩ ⟨2, ![M, N]⟩).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Dot

/-! ## The two sides at an entry -/

/-- The kernel's block result at entry (p, q), from the three blocks it holds: the change of format is the identity,
    the product into the zero matrix is ∑ k, x0[p, k] · x1[k, q], the bias recast as one row and repeated down the
    rows is x2[q], and the comparison with zero, the product with the slope and the choice are entrywise. -/
theorem pay_apply (x0 : Vec Ideal S2000x128 .f32) (x1 : Vec Ideal S128x128 .f32) (x2 : Vec Ideal S128 .f32)
    (p : Fin 2000) (q : Fin 128) :
    (k0_pay1 (F := Ideal) x0 x1 x2) (ix2 p q)
      = leakyAt ((∑ k : Fin 128, x0 (ix2 p k) * x1 (ix2 k q)) + x2 (ix1 q)) := by
  have hA : (matmul dot_S2000x128_S128x128_S2000x128_1_0_0_1_n_n none
        (truncf .bf16 x0 bitsLt_bf16_f32 : FVec Ideal S2000x128 .bf16) (truncf .bf16 x1 bitsLt_bf16_f32 : FVec Ideal S128x128 .bf16)
        (constant S2000x128 .f32 0x00000000#32) : FVec Ideal S2000x128 .f32) (ix2 p q)
      = ∑ k : Fin 128, x0 (ix2 p k) * x1 (ix2 k q) := by
    rw [matmul_zero_eq_dotGeneral]
    exact dot_apply dot_S2000x128_S128x128_S2000x128_1_0_0_1_n_n_wf none _ _ p q
  have hB : (broadcastTo S2000x128 (shapeCast S1x128 x2 shapeCasts_S128_S1x128 : FVec Ideal S1x128 .f32) broadcasts_S1x128_S2000x128 : FVec Ideal S2000x128 .f32) (ix2 p q)
      = x2 (ix1 q) :=
    (broadcastTo_1b_ab_apply _ broadcasts_S1x128_S2000x128 p q).trans (shapeCast_a_1a_apply x2 shapeCasts_S128_S1x128 0 q)
  unfold k0_pay1
  show leakyAt (_ + _) = _
  exact congrArg leakyAt (congrArg₂ (· + ·) hA hB)

/-- The reference's projection at entry (p, q): the host's product is ∑ k, x[p, k] · w[k, q], the bias broadcast to one
    row and then down the 20000 rows is b[q], and leaky_relu's comparison, product and choice are entrywise with the
    same two constants. -/
theorem geneProj_apply (x : FVec Ideal Cert.ReferenceIdeal.S20000x128 .f32)
    (w : FVec Ideal Cert.ReferenceIdeal.S128x128 .f32) (b : FVec Ideal Cert.ReferenceIdeal.S128 .f32) (p : Fin 20000) (q : Fin 128) :
    Cert.ReferenceIdeal.RefValue.geneProj (F := Ideal) x w b (ix2 p q)
      = leakyAt ((∑ k : Fin 128, x (ix2 p k) * w (ix2 k q)) + b (ix1 q)) := by
  have hA : Host.dotGeneral (F := Ideal) Cert.ReferenceIdeal.dot_S20000x128_S128x128_S20000x128_1_0_0_1_n_n none x w (ix2 p q)
      = ∑ k : Fin 128, x (ix2 p k) * w (ix2 k q) :=
    dot_apply Cert.ReferenceIdeal.Facts₀.dot_S20000x128_S128x128_S20000x128_1_0_0_1_n_n_wf none x w p q
  have hB : (broadcastInDim Cert.ReferenceIdeal.S20000x128 ![0, 1] Cert.ReferenceIdeal.Facts₀.bcast_S1x128_S20000x128_0_1
        (broadcastInDim Cert.ReferenceIdeal.S1x128 ![1] Cert.ReferenceIdeal.Facts₀.bcast_S128_S1x128_1 b)) (ix2 p q) = b (ix1 q) := by
    refine (broadcastInDim_oneRow_apply Cert.ReferenceIdeal.Facts₀.bcast_S1x128_S20000x128_0_1 _ p q).trans ?_
    refine broadcastInDim_apply ![1] Cert.ReferenceIdeal.Facts₀.bcast_S128_S1x128_1 b (ix2 (0 : Fin 1) q) (ix1 q) ?_
    intro a
    match a with
    | ⟨0, _⟩ => show q.val = if (128 : ℕ) = 1 then 0 else q.val; simp
  unfold Cert.ReferenceIdeal.RefValue.geneProj Cert.ReferenceIdeal.RefValue.leaky
  show leakyAt (_ + _) = _
  exact congrArg leakyAt (congrArg₂ (· + ·) hA hB)

/-! ## The kernel's blocks, and the result array they fill -/

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- Which block each operand holds at grid point t, decided over the ten points: gene_z and the result are at row
    block t (and the one column block); W and b are at their one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row p of the gene_z block at point t is row 2000·t + p of gene_z. -/
theorem rows_block (c : Dev nD) (t : Fin cfg0.N) (p : Fin 2000) (k : Fin 128) (r : Fin 20000) (hr : r.val = t.val * 2000 + p.val) :
    (iblk0 (V0 m ρ) c 0 t : Vec Ideal S2000x128 .f32) (ix2 p k)
      = (m ((c : Thread nD τ).loc main_arg1) : S20000x128.Idx → EReal) (ix2 r k) := by
  obtain ⟨e00, e01, -⟩ := block_indices t
  unfold iblk0
  rw [View.read_apply]
  show m (c.tc.loc main_arg1) _ = m (c.tc.loc main_arg1) _
  congr 1
  funext a; apply Fin.ext
  match a with
  | ⟨0, _⟩ => show win0_0.index t (0 : Fin 2) * 2000 + 1 * p.val = r.val; rw [e00, hr]; omega
  | ⟨1, _⟩ => show win0_0.index t (1 : Fin 2) * 128 + 1 * k.val = k.val; rw [e01]; omega

/-- The W block is W itself at every point. -/
theorem weights_block (c : Dev nD) (t : Fin cfg0.N) (k : Fin 128) (q : Fin 128) :
    (iblk0 (V0 m ρ) c 1 t : Vec Ideal S128x128 .f32) (ix2 k q)
      = (m ((c : Thread nD τ).loc main_arg2) : S128x128.Idx → EReal) (ix2 k q) := by
  obtain ⟨-, -, e10, e11, -⟩ := block_indices t
  unfold iblk0
  rw [View.read_apply]
  show m (c.tc.loc main_arg2) _ = m (c.tc.loc main_arg2) _
  congr 1
  funext a; apply Fin.ext
  match a with
  | ⟨0, _⟩ => show win0_1.index t (0 : Fin 2) * 128 + 1 * k.val = k.val; rw [e10]; omega
  | ⟨1, _⟩ => show win0_1.index t (1 : Fin 2) * 128 + 1 * q.val = q.val; rw [e11]; omega

/-- The b block is b itself at every point. -/
theorem bias_block (c : Dev nD) (t : Fin cfg0.N) (q : Fin 128) :
    (iblk0 (V0 m ρ) c 2 t : Vec Ideal S128 .f32) (ix1 q)
      = (m ((c : Thread nD τ).loc main_arg3) : S128.Idx → EReal) (ix1 q) := by
  obtain ⟨-, -, -, -, e20, -⟩ := block_indices t
  unfold iblk0
  rw [View.read_apply]
  show m (c.tc.loc main_arg3) _ = m (c.tc.loc main_arg3) _
  congr 1
  funext a; apply Fin.ext
  match a with
  | ⟨0, _⟩ => show win0_2.index t (0 : Fin 1) * 128 + 1 * q.val = q.val; rw [e20]; omega

/-- What point t writes back is rows 2000·t … 2000·t + 1999 of `projAt` of the three argument arrays: the body's one
    store covers the whole block, its payload at (p, q) is leaky of the sum over the block's row p, and that row is row
    2000·t + p of gene_z, which is also where entry (p, q) of the result block sits in the result array. -/
theorem flushed_eq (c : Dev nD) (t : Fin cfg0.N) :
    (dat0 (V0 m ρ) c).flushed 3 t = ((cfg0.win 3).blk t).view.read (Elt Ideal)
      (projAt (m ((c : Thread nD τ).loc main_arg1)) (m ((c : Thread nD τ).loc main_arg2)) (m ((c : Thread nD τ).loc main_arg3))) := by
  show (cfg0.win 3).cut (grid0.coords t) ((dat0 (V0 m ρ) c).after 3 t) = _
  rw [after0_3]
  unfold out0_3
  rw [View.canon_unit_zero zero2]
  simp only [View.ld_unit_zero (S := S2000x128) zero2, View.ld_unit_zero (S := S128x128) zero2, View.ld_unit_zero (S := S128) zero1]
  obtain ⟨-, -, -, -, -, e30, e31⟩ := block_indices t
  have hN : cfg0.N = 10 := N_0
  have ht : t.val < 10 := hN ▸ t.isLt
  funext j
  obtain ⟨p, q, rfl⟩ : ∃ (p : Fin 2000) (q : Fin 128), j = ix2 p q := ⟨j 0, j 1, eq_ix2 j⟩
  have hr : ((cfg0.win 3).blk t).view.emb (ix2 p q) = ix2 (⟨t.val * 2000 + p.val, by have := p.isLt; omega⟩ : Fin 20000) q := by
    funext a; apply Fin.ext
    match a with
    | ⟨0, _⟩ => show win0_3.index t (0 : Fin 2) * 2000 + 1 * p.val = t.val * 2000 + p.val; rw [e30]; omega
    | ⟨1, _⟩ => show win0_3.index t (1 : Fin 2) * 128 + 1 * q.val = q.val; rw [e31]; omega
  show k0_pay1 (F := Ideal) (iblk0 (V0 m ρ) c 0 t) (iblk0 (V0 m ρ) c 1 t) (iblk0 (V0 m ρ) c 2 t) (ix2 p q)
    = projAt (m ((c : Thread nD τ).loc main_arg1)) (m ((c : Thread nD τ).loc main_arg2)) (m ((c : Thread nD τ).loc main_arg3)) (((cfg0.win 3).blk t).view.emb (ix2 p q))
  rw [hr]
  refine (pay_apply (iblk0 (V0 m ρ) c 0 t) (iblk0 (V0 m ρ) c 1 t) (iblk0 (V0 m ρ) c 2 t) p q).trans ?_
  show leakyAt (_ + _) = leakyAt (_ + _)
  refine congrArg leakyAt (congrArg₂ (· + ·) (Finset.sum_congr rfl fun k _ => congrArg₂ (· * ·) ?_ ?_) ?_)
  · exact rows_block m ρ c t p k _ rfl
  · exact weights_block m ρ c t k q
  · exact bias_block m ρ c t q

/-- An entry of the result array is in point t's block iff each coordinate is in the block's range on its axis. -/
theorem mem_block (t : Fin cfg0.N) (i : S20000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v0).slice (win0_3.rect t)).set ↔ _
  rw [View.set_slice_whole, Rect.mem_set_unit]
  exact Iff.rfl

/-- Every entry (r, j) of the result array is written back by some point: the point r / 2000. -/
theorem covered (i : S20000x128.Idx) :
    ∃ t : Fin cfg0.N, (cfg0.win 3).flush t = true ∧ i ∈ ((cfg0.win 3).blk t).view.set := by
  have hi0 : (i 0).val < 20000 := (i 0).isLt
  have hi1 : (i 1).val < 128 := (i 1).isLt
  have hN : cfg0.N = 10 := N_0
  obtain ⟨t, ht⟩ : ∃ t : Fin cfg0.N, t.val = (i 0).val / 2000 := ⟨⟨(i 0).val / 2000, by rw [hN]; omega⟩, rfl⟩
  obtain ⟨-, -, -, -, -, e30, e31⟩ := block_indices t
  refine ⟨t, flush0_3 t, ?_⟩
  rw [mem_block]
  intro a
  match a with
  | ⟨0, _⟩ => show win0_3.index t (0 : Fin 2) * 2000 ≤ (i 0).val ∧ (i 0).val < win0_3.index t (0 : Fin 2) * 2000 + 2000; rw [e30, ht]; omega
  | ⟨1, _⟩ => show win0_3.index t (1 : Fin 2) * 128 ≤ (i 1).val ∧ (i 1).val < win0_3.index t (1 : Fin 2) * 128 + 128; rw [e31]; omega

end Proj

variable (m : (ℓ : Loc nD τ sig) → Buf (Elt Ideal) ℓ) (ρ : Dev nD → PrngReg)

/-- After the projection kernel its result array holds leaky_relu (gene_z · W + b), the reference's term. -/
theorem geneProj_eq (c : Dev nD) :
    W1 (F := Ideal) m ρ c (Proc.devRef .tc main_v0)
      = Cert.ReferenceIdeal.RefValue.geneProj (F := Ideal) (m ((c.tc : Thread nD τ).loc main_arg1)) (m ((c.tc : Thread nD τ).loc main_arg2)) (m ((c.tc : Thread nD τ).loc main_arg3)) := by
  refine (W1_arr m ρ c 3).trans ?_
  refine ((dat0 (V0 m ρ) c).arrAt_eq_of_cover 3
    (Proj.projAt (m ((c : Thread nD τ).loc main_arg1)) (m ((c : Thread nD τ).loc main_arg2)) (m ((c : Thread nD τ).loc main_arg3)))
    (fun t _ => Proj.flushed_eq m ρ c t) Proj.covered).trans ?_
  funext i
  obtain ⟨p, q, rfl⟩ : ∃ (p : Fin 20000) (q : Fin 128), i = ix2 p q := ⟨i 0, i 1, eq_ix2 i⟩
  exact (Proj.geneProj_apply _ _ _ p q).symm

end Cert.KernelIdeal.KValue

end
-- ==== Proof.HostMid.lean ====
/-
  Between the projection kernel and the combine kernel the entry point works on whole arrays on the host. Its
  first stretch normalises the two index vectors (a negative index counts from the end of its axis), looks the
  node ids up through them, normalises those again, and makes the eight lookups: the cell rows u = cell_z[src],
  the projected gene rows v = proj[dst], and six per-edge scalars through the node-id tables. Then eight short
  stretches follow, one per operand: the integer zero is converted to a float and the operand is padded with it
  from 1,000,000 to 1,007,616 edges, a whole number of 8192-edge blocks.

  This module reads the contents at the combine kernel's entry off that chain, for any float type. The
  valuation there is a fold of sixteen lists of operations over the contents the projection kernel left. It is
  cut in two: the fifteen pad and constant stretches, read over an arbitrary starting valuation (each padded
  array is the pad of ONE array of the starting valuation, the zero made inside the stretches except the first,
  which the first stretch makes), and the first stretch, read over an arbitrary starting valuation as well
  (each of its eight lookup results is a composition of lookups and index normalisations of the arguments).
  Instantiating the second in the first, and reading the arguments back to the launch memory — the projection
  kernel writes only its own result array, which stays as it left it —, gives the eight statements below. The
  lookups and pads are never opened: every step is a rewriting of which operation wrote which buffer.
-/
import proofs.«411593_j1855425872454_3_alg».proof.Proof.Gen.KernelIdeal.Frame
import proofs.«411593_j1855425872454_3_alg».proof.Proof.KSpec
import Idealize.ShloMosaic.Lib.StableHlo.Run

noncomputable section

namespace Cert.KernelIdeal.KValue

open Cert.KernelIdeal Cert.KernelIdeal.Gen Idealize.ShloMosaic Idealize.ShloMosaic.TcCoe Idealize.SL.Sem

variable {F : FTy → Type} [FloatOps F]

namespace HostMid

/-! ## The first stretch, over any starting contents -/

section First

variable (X : Valuation τ sig (Elt F))

attribute [local irreducible] Host.gather pad in
set_option maxHeartbeats 4000000 in
/-- The cell rows: the embedding table looked up at the normalised source indices. -/
theorem first_v63 : StableHlo.after hostOps1 X (Proc.devRef .tc main_v63)
    = rowsC (X (Proc.devRef .tc main_arg0)) (normIdx 100000#32 (X (Proc.devRef .tc main_arg10))) := by
  after_results_simp
  rfl

attribute [local irreducible] Host.gather pad in
set_option maxHeartbeats 4000000 in
/-- The gene rows: the projection kernel's result looked up at the normalised destination indices. -/
theorem first_v70 : StableHlo.after hostOps1 X (Proc.devRef .tc main_v70)
    = rowsG (X (Proc.devRef .tc main_v0)) (normIdx 20000#32 (X (Proc.devRef .tc main_arg11))) := by
  after_results_simp
  rfl

attribute [local irreducible] Host.gather pad in
set_option maxHeartbeats 4000000 in
/-- A per-cell scalar: looked up at the normalised node id of the edge's source cell. -/
theorem first_v21 : StableHlo.after hostOps1 X (Proc.devRef .tc main_v21)
    = takeC (X (Proc.devRef .tc main_arg4)) (normIdx 100000#32 (takeC (X (Proc.devRef .tc main_arg12)) (normIdx 100000#32 (X (Proc.devRef .tc main_arg10))))) := by
  after_results_simp
  rfl

attribute [local irreducible] Host.gather pad in
set_option maxHeartbeats 4000000 in
theorem first_v28 : StableHlo.after hostOps1 X (Proc.devRef .tc main_v28)
    = takeC (X (Proc.devRef .tc main_arg5)) (normIdx 100000#32 (takeC (X (Proc.devRef .tc main_arg12)) (normIdx 100000#32 (X (Proc.devRef .tc main_arg10))))) := by
  after_results_simp
  rfl

attribute [local irreducible] Host.gather pad in
set_option maxHeartbeats 4000000 in
theorem first_v35 : StableHlo.after hostOps1 X (Proc.devRef .tc main_v35)
    = takeC (X (Proc.devRef .tc main_arg6)) (normIdx 100000#32 (takeC (X (Proc.devRef .tc main_arg12)) (normIdx 100000#32 (X (Proc.devRef .tc main_arg10))))) := by
  after_results_simp
  rfl

attribute [local irreducible] Host.gather pad in
set_option maxHeartbeats 4000000 in
/-- A per-gene scalar: looked up at the normalised node id of the edge's destination gene. -/
theorem first_v42 : StableHlo.after hostOps1 X (Proc.devRef .tc main_v42)
    = takeG (X (Proc.devRef .tc main_arg7)) (normIdx 20000#32 (takeG (X (Proc.devRef .tc main_arg13)) (normIdx 20000#32 (X (Proc.devRef .tc main_arg11))))) := by
  after_results_simp
  rfl

attribute [local irreducible] Host.gather pad in
set_option maxHeartbeats 4000000 in
theorem first_v49 : StableHlo.after hostOps1 X (Proc.devRef .tc main_v49)
    = takeG (X (Proc.devRef .tc main_arg8)) (normIdx 20000#32 (takeG (X (Proc.devRef .tc main_arg13)) (normIdx 20000#32 (X (Proc.devRef .tc main_arg11))))) := by
  after_results_simp
  rfl

attribute [local irreducible] Host.gather pad in
set_option maxHeartbeats 4000000 in
theorem first_v56 : StableHlo.after hostOps1 X (Proc.devRef .tc main_v56)
    = takeG (X (Proc.devRef .tc main_arg9)) (normIdx 20000#32 (takeG (X (Proc.devRef .tc main_arg13)) (normIdx 20000#32 (X (Proc.devRef .tc main_arg11))))) := by
  after_results_simp
  rfl

/-- The stretch's last operation: the integer zero the first pad converts. -/
theorem first_c19 : StableHlo.after hostOps1 X (Proc.devRef .tc main_c_19) = constantI S_ 32 0#32 := by
  after_results_simp

end First

/-! ## The fifteen pad and constant stretches, over any starting contents -/

section Pads

variable (X : Valuation τ sig (Elt F))

/-- The contents after the stretches that follow the first one, from contents `X`. -/
abbrev padded : Valuation τ sig (Elt F) :=
  StableHlo.after hostOps1_15 (StableHlo.after hostOps1_14 (StableHlo.after hostOps1_13 (StableHlo.after hostOps1_12
    (StableHlo.after hostOps1_11 (StableHlo.after hostOps1_10 (StableHlo.after hostOps1_9 (StableHlo.after hostOps1_8
      (StableHlo.after hostOps1_7 (StableHlo.after hostOps1_6 (StableHlo.after hostOps1_5 (StableHlo.after hostOps1_4
        (StableHlo.after hostOps1_3 (StableHlo.after hostOps1_2 (StableHlo.after hostOps1_1 X))))))))))))))

attribute [local irreducible] Host.gather pad in
/-- The padded cell rows. The first pad converts the zero the first stretch left; the later ones each a zero
    made by the one-constant stretch before them. -/
theorem padded_v71 (hc : X (Proc.devRef .tc main_c_19) = constantI S_ 32 0#32) :
    padded X (Proc.devRef .tc main_v71) = padRows (X (Proc.devRef .tc main_v63)) := by
  show StableHlo.after hostOps1_15 _ _ = _
  after_results
  rw [hc]
  rfl

attribute [local irreducible] Host.gather pad in
/-- The padded gene rows. -/
theorem padded_v72 : padded X (Proc.devRef .tc main_v72) = padRows (X (Proc.devRef .tc main_v70)) := by
  show StableHlo.after hostOps1_15 _ _ = _
  after_results
  rfl

attribute [local irreducible] Host.gather pad in
/-- The six padded per-edge scalars. -/
theorem padded_v73 : padded X (Proc.devRef .tc main_v73) = padVec (X (Proc.devRef .tc main_v21)) := by
  show StableHlo.after hostOps1_15 _ _ = _
  after_results
  rfl

attribute [local irreducible] Host.gather pad in
theorem padded_v74 : padded X (Proc.devRef .tc main_v74) = padVec (X (Proc.devRef .tc main_v28)) := by
  show StableHlo.after hostOps1_15 _ _ = _
  after_results
  rfl

attribute [local irreducible] Host.gather pad in
theorem padded_v75 : padded X (Proc.devRef .tc main_v75) = padVec (X (Proc.devRef .tc main_v35)) := by
  show StableHlo.after hostOps1_15 _ _ = _
  after_results
  rfl

attribute [local irreducible] Host.gather pad in
theorem padded_v76 : padded X (Proc.devRef .tc main_v76) = padVec (X (Proc.devRef .tc main_v42)) := by
  show StableHlo.after hostOps1_15 _ _ = _
  after_results
  rfl

attribute [local irreducible] Host.gather pad in
theorem padded_v77 : padded X (Proc.devRef .tc main_v77) = padVec (X (Proc.devRef .tc main_v49)) := by
  show StableHlo.after hostOps1_15 _ _ = _
  after_results
  rfl

attribute [local irreducible] Host.gather pad in
theorem padded_v78 : padded X (Proc.devRef .tc main_v78) = padVec (X (Proc.devRef .tc main_v56)) := by
  show StableHlo.after hostOps1_15 _ _ = _
  after_results
  rfl

end Pads

/-! ## The contents at the combine kernel's entry -/

variable (m : (ℓ : Loc nD τ sig) → Buf (Elt F) ℓ) (ρ : Dev nD → PrngReg)

/-- A buffer that is no array of the projection kernel holds after it what the launch memory holds. -/
theorem w1_launch (c : Dev nD) (b : Ref sig .tc) (hb : ∀ w, Pipeline.arrRef spec0 w ≠ b) :
    W1 m ρ c (Proc.devRef .tc b) = m ((c.tc : Thread nD τ).loc b) :=
  (W1_of_ne m ρ c b hb).trans rfl

end HostMid

open HostMid

variable (m : (ℓ : Loc nD τ sig) → Buf (Elt F) ℓ) (ρ : Dev nD → PrngReg)

theorem w17_v71 (c : Dev nD) : W17 m ρ c (Proc.devRef .tc main_v71) = padRows (rowsC (m ((c.tc : Thread nD τ).loc main_arg0)) (normIdx 100000#32 (m ((c.tc : Thread nD τ).loc main_arg10)))) := by
  refine (padded_v71 (W2 m ρ c) (first_c19 (W1 m ρ c))).trans (congrArg padRows ((first_v63 (W1 m ρ c)).trans ?_))
  rw [w1_launch m ρ c main_arg0 (by decide), w1_launch m ρ c main_arg10 (by decide)]
theorem w17_v72 (c : Dev nD) : W17 m ρ c (Proc.devRef .tc main_v72) = padRows (rowsG (W1 m ρ c (Proc.devRef .tc main_v0)) (normIdx 20000#32 (m ((c.tc : Thread nD τ).loc main_arg11)))) := by
  refine (padded_v72 (W2 m ρ c)).trans (congrArg padRows ((first_v70 (W1 m ρ c)).trans ?_))
  rw [w1_launch m ρ c main_arg11 (by decide)]
theorem w17_v73 (c : Dev nD) : W17 m ρ c (Proc.devRef .tc main_v73) = padVec (takeC (m ((c.tc : Thread nD τ).loc main_arg4)) (normIdx 100000#32 (takeC (m ((c.tc : Thread nD τ).loc main_arg12)) (normIdx 100000#32 (m ((c.tc : Thread nD τ).loc main_arg10)))))) := by
  refine (padded_v73 (W2 m ρ c)).trans (congrArg padVec ((first_v21 (W1 m ρ c)).trans ?_))
  rw [w1_launch m ρ c main_arg4 (by decide), w1_launch m ρ c main_arg12 (by decide), w1_launch m ρ c main_arg10 (by decide)]
theorem w17_v74 (c : Dev nD) : W17 m ρ c (Proc.devRef .tc main_v74) = padVec (takeC (m ((c.tc : Thread nD τ).loc main_arg5)) (normIdx 100000#32 (takeC (m ((c.tc : Thread nD τ).loc main_arg12)) (normIdx 100000#32 (m ((c.tc : Thread nD τ).loc main_arg10)))))) := by
  refine (padded_v74 (W2 m ρ c)).trans (congrArg padVec ((first_v28 (W1 m ρ c)).trans ?_))
  rw [w1_launch m ρ c main_arg5 (by decide), w1_launch m ρ c main_arg12 (by decide), w1_launch m ρ c main_arg10 (by decide)]
theorem w17_v75 (c : Dev nD) : W17 m ρ c (Proc.devRef .tc main_v75) = padVec (takeC (m ((c.tc : Thread nD τ).loc main_arg6)) (normIdx 100000#32 (takeC (m ((c.tc : Thread nD τ).loc main_arg12)) (normIdx 100000#32 (m ((c.tc : Thread nD τ).loc main_arg10)))))) := by
  refine (padded_v75 (W2 m ρ c)).trans (congrArg padVec ((first_v35 (W1 m ρ c)).trans ?_))
  rw [w1_launch m ρ c main_arg6 (by decide), w1_launch m ρ c main_arg12 (by decide), w1_launch m ρ c main_arg10 (by decide)]
theorem w17_v76 (c : Dev nD) : W17 m ρ c (Proc.devRef .tc main_v76) = padVec (takeG (m ((c.tc : Thread nD τ).loc main_arg7)) (normIdx 20000#32 (takeG (m ((c.tc : Thread nD τ).loc main_arg13)) (normIdx 20000#32 (m ((c.tc : Thread nD τ).loc main_arg11)))))) := by
  refine (padded_v76 (W2 m ρ c)).trans (congrArg padVec ((first_v42 (W1 m ρ c)).trans ?_))
  rw [w1_launch m ρ c main_arg7 (by decide), w1_launch m ρ c main_arg13 (by decide), w1_launch m ρ c main_arg11 (by decide)]
theorem w17_v77 (c : Dev nD) : W17 m ρ c (Proc.devRef .tc main_v77) = padVec (takeG (m ((c.tc : Thread nD τ).loc main_arg8)) (normIdx 20000#32 (takeG (m ((c.tc : Thread nD τ).loc main_arg13)) (normIdx 20000#32 (m ((c.tc : Thread nD τ).loc main_arg11)))))) := by
  refine (padded_v77 (W2 m ρ c)).trans (congrArg padVec ((first_v49 (W1 m ρ c)).trans ?_))
  rw [w1_launch m ρ c main_arg8 (by decide), w1_launch m ρ c main_arg13 (by decide), w1_launch m ρ c main_arg11 (by decide)]
theorem w17_v78 (c : Dev nD) : W17 m ρ c (Proc.devRef .tc main_v78) = padVec (takeG (m ((c.tc : Thread nD τ).loc main_arg9)) (normIdx 20000#32 (takeG (m ((c.tc : Thread nD τ).loc main_arg13)) (normIdx 20000#32 (m ((c.tc : Thread nD τ).loc main_arg11)))))) := by
  refine (padded_v78 (W2 m ρ c)).trans (congrArg padVec ((first_v56 (W1 m ρ c)).trans ?_))
  rw [w1_launch m ρ c main_arg9 (by decide), w1_launch m ρ c main_arg13 (by decide), w1_launch m ρ c main_arg11 (by decide)]

end Cert.KernelIdeal.KValue

end
-- ==== Proof.Combine.lean ====
/-
  The combine kernel walks the 1,007,616 padded edges in 123 blocks of 8192 edges. At block t every one of its
  windows sits at block index t of its array: the two row windows hold rows 8192·t … 8192·t + 8191 (all 128 lanes) of
  the edge's two embedding matrices, the six scalar windows and the two result windows hold the same range of entries
  of their vectors. Inside a block the body is entry by entry: at edge e of the block it multiplies the two rows lane
  by lane, sums the 128 products, multiplies by the two scales, adds the two biases, and stores that; and it stores
  the product of the two deviations. Over the extended reals, where every operation is exact, these are the formulas
  `locP` and `stdP` read at row 8192·t + e of the six (two) operand arrays. Every edge i lies in block i / 8192, and
  each block is written once with its restriction of one whole-array function, so after the last block the two result
  arrays hold `locP` and `stdP` of the operand arrays as the kernel found them.
-/
import proofs.«411593_j1855425872454_3_alg».proof.Proof.Gen.KernelIdeal.Frame
import proofs.«411593_j1855425872454_3_alg».proof.Proof.KSpec
import Idealize.ShloMosaic.Lib.ValueIdx
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.TcCoe Idealize.SL.Sem

namespace Combine

open Idealize.ShloMosaic.Pipeline (Dat)
open Idealize.ShloMosaic.ValueIdx

/-! ## The body at one edge of a block -/

/-- Putting lane `k` back into the reduced index `e` gives the matrix index (e, k). -/
theorem lift_row (h : S8192x128.Reduces [1] S8192) (e : Fin 8192) (k : Fin (S8192x128.size 1)) :
    h.lift (ix1 e) k = ix2 e (⟨k.val, k.isLt⟩ : Fin 128) := by
  funext c; apply Fin.ext; fin_cases c <;> rfl

/-- The sum over the lane axis of an [8192, 128] block, from a zero accumulator, at row `e`: the sum of the row's 128
    entries. -/
theorem laneSum (src : FVec Ideal S8192x128 .f32) (h : S8192x128.Reduces [1] S8192) (hφ : FKind.Formats .f32)
    (hacc : (0x00000000#32 : BitVec 32) = 0x00000000#32) (e : Fin 8192) :
    multiReduction (F := Ideal) .add [1] S8192 src 0x00000000#32 h hφ hacc (ix1 e) = ∑ k : Fin 128, src (ix2 e k) := by
  refine (Ideal.multiReduction_add_single src 0x00000000#32 h hφ hacc (ix1 e)).trans ?_
  exact Finset.sum_congr rfl fun k _ => congrArg src (lift_row h e k)

/-- The first stored value at edge `e` of a block: the dot product of the two rows, times the two scales, plus the two
    biases (the casts to the same shape change nothing). -/
theorem pay1_apply (x0 x1 : Vec Ideal S8192x128 .f32) (x2 x5 x3 x6 : Vec Ideal S8192 .f32) (e : Fin 8192) :
    k1_pay1 (F := Ideal) x0 x1 x2 x5 x3 x6 (ix1 e)
      = (((∑ k : Fin 128, x0 (ix2 e k) * x1 (ix2 e k)) * x2 (ix1 e)) * x5 (ix1 e) + x3 (ix1 e)) + x6 (ix1 e) := by
  unfold k1_pay1
  simp only [shapeCast_self]
  show (((multiReduction (F := Ideal) .add [1] S8192 (mulf x0 x1) 0x00000000#32 reduces_S8192x128_S8192 (.inl rfl) rfl (ix1 e)) * x2 (ix1 e)) * x5 (ix1 e) + x3 (ix1 e)) + x6 (ix1 e) = _
  rw [laneSum]
  rfl

/-- The second stored value at edge `e` of a block: the product of the two deviations. -/
theorem pay2_apply (x4 x7 : Vec Ideal S8192 .f32) (e : Fin 8192) :
    k1_pay2 (F := Ideal) x4 x7 (ix1 e) = x4 (ix1 e) * x7 (ix1 e) := by
  unfold k1_pay2
  simp only [shapeCast_self]
  rfl

/-- If the six blocks are, at block entry `j`, the six arrays at array entry `i` (rows for the two matrices), the first
    stored value at `j` is `locP` of the arrays at `i`. -/
theorem pay1_block (x0 x1 : Vec Ideal S8192x128 .f32) (x2 x5 x3 x6 : Vec Ideal S8192 .f32)
    (u v : Vec Ideal S1007616x128 .f32) (ssc dsc sb db : Vec Ideal S1007616 .f32) (j : S8192.Idx) (i : S1007616.Idx)
    (h0 : ∀ k : Fin 128, x0 (ix2 (j 0) k) = u (ix2 (i 0) k)) (h1 : ∀ k : Fin 128, x1 (ix2 (j 0) k) = v (ix2 (i 0) k))
    (h2 : x2 j = ssc i) (h5 : x5 j = dsc i) (h3 : x3 j = sb i) (h6 : x6 j = db i) :
    k1_pay1 (F := Ideal) x0 x1 x2 x5 x3 x6 j = locP u v ssc dsc sb db i := by
  obtain ⟨e, rfl⟩ : ∃ e : Fin 8192, j = ix1 e := ⟨j 0, eq_ix1 j⟩
  rw [pay1_apply, h2, h5, h3, h6]
  unfold locP
  exact congrArg (fun s => ((s * ssc i) * dsc i + sb i) + db i)
    (Finset.sum_congr rfl fun k _ => by rw [h0 k, h1 k])

/-- Likewise the second stored value is `stdP` of the two deviation arrays at `i`. -/
theorem pay2_block (x4 x7 : Vec Ideal S8192 .f32) (ssd dsd : Vec Ideal S1007616 .f32) (j : S8192.Idx) (i : S1007616.Idx)
    (h4 : x4 j = ssd i) (h7 : x7 j = dsd i) :
    k1_pay2 (F := Ideal) x4 x7 j = stdP ssd dsd i := by
  obtain ⟨e, rfl⟩ : ∃ e : Fin 8192, j = ix1 e := ⟨j 0, eq_ix1 j⟩
  rw [pay2_apply, h4, h7]
  rfl

/-! ## Where the blocks sit -/

theorem hz1 : (![0] : Fin 1 → Nat) = fun _ => 0 := funext fun a => by fin_cases a; rfl
theorem hz2 : (![0, 0] : Fin 2 → Nat) = fun _ => 0 := funext fun a => by fin_cases a <;> rfl

/-- At grid point `t` every window is at block index `t` along the edge axis (and 0 along the lane axis), decided over
    the 123 points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = t.val ∧ win1_3.index t (0 : Fin 1) = t.val
    ∧ win1_4.index t (0 : Fin 1) = t.val ∧ win1_5.index t (0 : Fin 1) = t.val
    ∧ win1_6.index t (0 : Fin 1) = t.val ∧ win1_7.index t (0 : Fin 1) = t.val
    ∧ win1_8.index t (0 : Fin 1) = t.val ∧ win1_9.index t (0 : Fin 1) = t.val :=
  (by decide +kernel : ∀ t : Fin grid1.N, _)

variable (V : (c : Dev nD) → (b : Ref sig .tc) → Buf (Elt Ideal) ((c : Thread nD τ).loc b))

/-! ## The first result -/

/-- What point `t` writes back to the first result is block `t` of `locP` of the operand arrays: every input block is
    read at the same rows 8192·t + e as the result block. -/
theorem flushed8_eq (c : Dev nD) (t : Fin cfg1.N) :
    (dat1 V c).flushed 8 t = ((cfg1.win 8).blk t).view.read (Elt Ideal)
      (locP (V c main_v71) (V c main_v72) (V c main_v73) (V c main_v76) (V c main_v74) (V c main_v77)) := by
  show (cfg1.win 8).cut (grid1.coords t) ((dat1 V c).after 8 t) = _
  rw [after1_8]
  unfold out1_8
  rw [View.canon_unit_zero hz1]
  simp only [View.ld_unit_zero (S := S8192x128) hz2, View.ld_unit_zero (S := S8192) hz1]
  obtain ⟨e00, e01, e10, e11, e2, e3, e4, e5, e6, e7, e8, e9⟩ := idx_facts t
  funext j
  show k1_pay1 (F := Ideal) (iblk1 V c 0 t) (iblk1 V c 1 t) (iblk1 V c 2 t) (iblk1 V c 5 t) (iblk1 V c 3 t) (iblk1 V c 6 t) j
    = locP (V c main_v71) (V c main_v72) (V c main_v73) (V c main_v76) (V c main_v74) (V c main_v77) (((cfg1.win 8).blk t).view.emb j)
  refine pay1_block (iblk1 V c 0 t) (iblk1 V c 1 t) (iblk1 V c 2 t) (iblk1 V c 5 t) (iblk1 V c 3 t) (iblk1 V c 6 t)
    (V c main_v71) (V c main_v72) (V c main_v73) (V c main_v76) (V c main_v74) (V c main_v77) j (((cfg1.win 8).blk t).view.emb j) ?_ ?_ ?_ ?_ ?_ ?_
  · intro k
    show V c main_v71 (((cfg1.win 0).blk t).view.emb (ix2 (j 0) k)) = V c main_v71 (ix2 ((((cfg1.win 8).blk t).view.emb j) 0) k)
    refine congrArg (V c main_v71) ?_
    funext a; apply Fin.ext
    match a with
    | ⟨0, _⟩ => show win1_0.index t (0 : Fin 2) * 8192 + 1 * (j 0).val = win1_8.index t (0 : Fin 1) * 8192 + 1 * (j 0).val; omega
    | ⟨1, _⟩ => show win1_0.index t (1 : Fin 2) * 128 + 1 * k.val = k.val; omega
  · intro k
    show V c main_v72 (((cfg1.win 1).blk t).view.emb (ix2 (j 0) k)) = V c main_v72 (ix2 ((((cfg1.win 8).blk t).view.emb j) 0) k)
    refine congrArg (V c main_v72) ?_
    funext a; apply Fin.ext
    match a with
    | ⟨0, _⟩ => show win1_1.index t (0 : Fin 2) * 8192 + 1 * (j 0).val = win1_8.index t (0 : Fin 1) * 8192 + 1 * (j 0).val; omega
    | ⟨1, _⟩ => show win1_1.index t (1 : Fin 2) * 128 + 1 * k.val = k.val; omega
  · show V c main_v73 (((cfg1.win 2).blk t).view.emb j) = V c main_v73 (((cfg1.win 8).blk t).view.emb j)
    refine congrArg (V c main_v73) ?_
    funext a; apply Fin.ext
    match a with
    | ⟨0, _⟩ => show win1_2.index t (0 : Fin 1) * 8192 + 1 * (j 0).val = win1_8.index t (0 : Fin 1) * 8192 + 1 * (j 0).val; omega
  · show V c main_v76 (((cfg1.win 5).blk t).view.emb j) = V c main_v76 (((cfg1.win 8).blk t).view.emb j)
    refine congrArg (V c main_v76) ?_
    funext a; apply Fin.ext
    match a with
    | ⟨0, _⟩ => show win1_5.index t (0 : Fin 1) * 8192 + 1 * (j 0).val = win1_8.index t (0 : Fin 1) * 8192 + 1 * (j 0).val; omega
  · show V c main_v74 (((cfg1.win 3).blk t).view.emb j) = V c main_v74 (((cfg1.win 8).blk t).view.emb j)
    refine congrArg (V c main_v74) ?_
    funext a; apply Fin.ext
    match a with
    | ⟨0, _⟩ => show win1_3.index t (0 : Fin 1) * 8192 + 1 * (j 0).val = win1_8.index t (0 : Fin 1) * 8192 + 1 * (j 0).val; omega
  · show V c main_v77 (((cfg1.win 6).blk t).view.emb j) = V c main_v77 (((cfg1.win 8).blk t).view.emb j)
    refine congrArg (V c main_v77) ?_
    funext a; apply Fin.ext
    match a with
    | ⟨0, _⟩ => show win1_6.index t (0 : Fin 1) * 8192 + 1 * (j 0).val = win1_8.index t (0 : Fin 1) * 8192 + 1 * (j 0).val; omega

/-- An entry of the first result array is in point `t`'s block iff it lies in the block's range of 8192 entries. -/
theorem mem_blk8 (t : Fin cfg1.N) (i : S1007616.Idx) :
    i ∈ ((cfg1.win 8).blk t).view.set ↔ ∀ a : Fin 1, win1_8.index t a * S8192.size a ≤ (i a).val ∧ (i a).val < win1_8.index t a * S8192.size a + S8192.size a := by
  show i ∈ ((View.whole main_v79_0).slice (win1_8.rect t)).set ↔ _
  rw [View.set_slice_whole, Rect.mem_set_unit]
  exact Iff.rfl

/-- Entry `i` lies in the block of point `i / 8192`, and every point writes back: the blocks fill the array. -/
theorem cover8 (i : S1007616.Idx) : ∃ t : Fin cfg1.N, (cfg1.win 8).flush t = true ∧ i ∈ ((cfg1.win 8).blk t).view.set := by
  have hi : (i 0).val < 1007616 := (i 0).isLt
  have hN : cfg1.N = 123 := N_1
  have hlt : (i 0).val / 8192 < cfg1.N := by rw [hN]; omega
  obtain ⟨-, -, -, -, -, -, -, -, -, -, e8, -⟩ := idx_facts ⟨(i 0).val / 8192, hlt⟩
  refine ⟨⟨(i 0).val / 8192, hlt⟩, flush1_8 _, ?_⟩
  rw [mem_blk8]
  intro a
  match a with
  | ⟨0, _⟩ =>
    show win1_8.index ⟨(i 0).val / 8192, hlt⟩ (0 : Fin 1) * 8192 ≤ (i 0).val ∧ (i 0).val < win1_8.index ⟨(i 0).val / 8192, hlt⟩ (0 : Fin 1) * 8192 + 8192
    rw [e8]
    show (i 0).val / 8192 * 8192 ≤ (i 0).val ∧ (i 0).val < (i 0).val / 8192 * 8192 + 8192
    omega

/-- So after the last point the first result array is `locP` of the operand arrays. -/
theorem final8 (c : Dev nD) :
    (dat1 V c).arrAt 8 cfg1.N = locP (V c main_v71) (V c main_v72) (V c main_v73) (V c main_v76) (V c main_v74) (V c main_v77) :=
  (dat1 V c).arrAt_eq_of_cover 8 _ (fun t _ => flushed8_eq V c t) cover8

/-! ## The second result -/

/-- What point `t` writes back to the second result is block `t` of `stdP` of the two deviation arrays. -/
theorem flushed9_eq (c : Dev nD) (t : Fin cfg1.N) :
    (dat1 V c).flushed 9 t = ((cfg1.win 9).blk t).view.read (Elt Ideal) (stdP (V c main_v75) (V c main_v78)) := by
  show (cfg1.win 9).cut (grid1.coords t) ((dat1 V c).after 9 t) = _
  rw [after1_9]
  unfold out1_9
  rw [View.canon_unit_zero hz1]
  simp only [View.ld_unit_zero (S := S8192) hz1]
  obtain ⟨e00, e01, e10, e11, e2, e3, e4, e5, e6, e7, e8, e9⟩ := idx_facts t
  funext j
  show k1_pay2 (F := Ideal) (iblk1 V c 4 t) (iblk1 V c 7 t) j
    = stdP (V c main_v75) (V c main_v78) (((cfg1.win 9).blk t).view.emb j)
  refine pay2_block (iblk1 V c 4 t) (iblk1 V c 7 t) (V c main_v75) (V c main_v78) j (((cfg1.win 9).blk t).view.emb j) ?_ ?_
  · show V c main_v75 (((cfg1.win 4).blk t).view.emb j) = V c main_v75 (((cfg1.win 9).blk t).view.emb j)
    refine congrArg (V c main_v75) ?_
    funext a; apply Fin.ext
    match a with
    | ⟨0, _⟩ => show win1_4.index t (0 : Fin 1) * 8192 + 1 * (j 0).val = win1_9.index t (0 : Fin 1) * 8192 + 1 * (j 0).val; omega
  · show V c main_v78 (((cfg1.win 7).blk t).view.emb j) = V c main_v78 (((cfg1.win 9).blk t).view.emb j)
    refine congrArg (V c main_v78) ?_
    funext a; apply Fin.ext
    match a with
    | ⟨0, _⟩ => show win1_7.index t (0 : Fin 1) * 8192 + 1 * (j 0).val = win1_9.index t (0 : Fin 1) * 8192 + 1 * (j 0).val; omega

/-- An entry of the second result array is in point `t`'s block iff it lies in the block's range of 8192 entries. -/
theorem mem_blk9 (t : Fin cfg1.N) (i : S1007616.Idx) :
    i ∈ ((cfg1.win 9).blk t).view.set ↔ ∀ a : Fin 1, win1_9.index t a * S8192.size a ≤ (i a).val ∧ (i a).val < win1_9.index t a * S8192.size a + S8192.size a := by
  show i ∈ ((View.whole main_v79_1).slice (win1_9.rect t)).set ↔ _
  rw [View.set_slice_whole, Rect.mem_set_unit]
  exact Iff.rfl

/-- Its blocks fill it in the same way. -/
theorem cover9 (i : S1007616.Idx) : ∃ t : Fin cfg1.N, (cfg1.win 9).flush t = true ∧ i ∈ ((cfg1.win 9).blk t).view.set := by
  have hi : (i 0).val < 1007616 := (i 0).isLt
  have hN : cfg1.N = 123 := N_1
  have hlt : (i 0).val / 8192 < cfg1.N := by rw [hN]; omega
  obtain ⟨-, -, -, -, -, -, -, -, -, -, -, e9⟩ := idx_facts ⟨(i 0).val / 8192, hlt⟩
  refine ⟨⟨(i 0).val / 8192, hlt⟩, flush1_9 _, ?_⟩
  rw [mem_blk9]
  intro a
  match a with
  | ⟨0, _⟩ =>
    show win1_9.index ⟨(i 0).val / 8192, hlt⟩ (0 : Fin 1) * 8192 ≤ (i 0).val ∧ (i 0).val < win1_9.index ⟨(i 0).val / 8192, hlt⟩ (0 : Fin 1) * 8192 + 8192
    rw [e9]
    show (i 0).val / 8192 * 8192 ≤ (i 0).val ∧ (i 0).val < (i 0).val / 8192 * 8192 + 8192
    omega

/-- So after the last point the second result array is `stdP` of the two deviation arrays. -/
theorem final9 (c : Dev nD) :
    (dat1 V c).arrAt 9 cfg1.N = stdP (V c main_v75) (V c main_v78) :=
  (dat1 V c).arrAt_eq_of_cover 9 _ (fun t _ => flushed9_eq V c t) cover9

end Combine

variable (m : (ℓ : Loc nD τ sig) → Buf (Elt Ideal) ℓ) (ρ : Dev nD → PrngReg)

/-- After the combine kernel its first result array holds, entry by entry, the dot product of the edge's two
    rows, scaled and shifted: `locP` of the six operand arrays as the kernel found them. -/
theorem w18_loc (c : Dev nD) :
    W18 (F := Ideal) m ρ c (Proc.devRef .tc main_v79_0)
      = locP (W17 m ρ c (Proc.devRef .tc main_v71)) (W17 m ρ c (Proc.devRef .tc main_v72)) (W17 m ρ c (Proc.devRef .tc main_v73)) (W17 m ρ c (Proc.devRef .tc main_v76)) (W17 m ρ c (Proc.devRef .tc main_v74)) (W17 m ρ c (Proc.devRef .tc main_v77)) :=
  (W18_arr m ρ c 8).trans (Combine.final8 (V17 m ρ) c)

/-- and its second the product of the two deviations. -/
theorem w18_std (c : Dev nD) :
    W18 (F := Ideal) m ρ c (Proc.devRef .tc main_v79_1) = stdP (W17 m ρ c (Proc.devRef .tc main_v75)) (W17 m ρ c (Proc.devRef .tc main_v78)) :=
  (W18_arr m ρ c 9).trans (Combine.final9 (V17 m ρ) c)

end Cert.KernelIdeal.KValue

end
-- ==== Proof.Bridge.lean ====
/-
  The kernel pads every per-edge operand with 7616 zero edges, computes on the padded arrays, and cuts the
  first million entries back out; the reference computes on the unpadded arrays. An entry e < 1,000,000 of
  a padded array is the unpadded array's entry e, the combine kernel's result at e depends on its operands at
  e only, and the slice reads e: so the stacked result of the kernel's side is, entry by entry, the reference's
  closing arithmetic — the lane sum Σ_k u[e,k]·v[e,k] against the host's 0 + Σ_k u[e,k]·v[e,k], then the same
  products and sums in the same order. No law of the extended reals beyond 0 + x = x is used.
-/
import proofs.«411593_j1855425872454_3_alg».proof.Proof.Gen.KernelIdeal
import proofs.«411593_j1855425872454_3_alg».proof.Proof.Gen.ReferenceIdeal
import proofs.«411593_j1855425872454_3_alg».proof.Proof.KSpec
import proofs.«411593_j1855425872454_3_alg».proof.Proof.RefSpec
import Idealize.ShloMosaic.Lib.ValueIdx
import Idealize.ShloMosaic.Lib.Pipeline.Value
import Idealize.ShloMosaic.Lib.KernelVsHost
import Idealize.ShloMosaic.Lib.IdealHost
import Idealize.ShloMosaic.PureOps.Ideal.Laws

noncomputable section

namespace Cert.KernelIdeal.KValue

open Cert.KernelIdeal Idealize.ShloMosaic Idealize.ShloMosaic.ValueIdx Idealize.SL.Sem
open Facts₀ Facts

variable {F : FTy → Type} [FloatOps F]

/-- An entry below the million of a padded matrix of rows is the unpadded matrix's. -/
theorem padRows_apply (x : (⟨S1000000x128, .f32⟩ : BufTy).Contents (Elt F)) (e : Fin 1000000) (k : Fin 128) (e' : Fin 1007616)
    (he : e'.val = e.val) : padRows x (ix2 e' k) = x (ix2 e k) := by
  unfold padRows
  refine pad_apply_of_inside _ _ _ _ _ _ _ (ix2 e' k) (ix2 e k) (fun a => ?_)
  match a with
  | ⟨0, _⟩ => show e'.val = 0 + e.val * (0 + 1); omega
  | ⟨1, _⟩ => show k.val = 0 + k.val * (0 + 1); omega

/-- An entry below the million of a padded vector is the unpadded vector's. -/
theorem padVec_apply (x : (⟨S1000000, .f32⟩ : BufTy).Contents (Elt F)) (e : Fin 1000000) (e' : Fin 1007616)
    (he : e'.val = e.val) : padVec x (ix1 e') = x (ix1 e) := by
  unfold padVec
  refine pad_apply_of_inside _ _ _ _ _ _ _ (ix1 e') (ix1 e) (fun a => ?_)
  match a with
  | ⟨0, _⟩ => show e'.val = 0 + e.val * (0 + 1); omega

/-- Row 0 of the stacked result reads the first vector at the same entry, -/
theorem stack_apply0 (loc std : (⟨S1007616, .f32⟩ : BufTy).Contents (Elt F)) (e : Fin 1000000) (e' : Fin 1007616)
    (he : e'.val = e.val) : stack loc std (ix2 (0 : Fin 2) e) = loc (ix1 e') := by
  unfold stack
  refine (concatenate_pair_apply_left (t := S2x1000000) (s₁ := S1x1000000) (s₂ := S1x1000000) (0 : Fin S2x1000000.rank) _ _ _ (ix2 (0 : Fin 2) e) rfl (ix2 (0 : Fin 1) e) (fun b => ?_)).trans ?_
  · match b with
    | ⟨0, _⟩ => rfl
    | ⟨1, _⟩ => rfl
  refine (broadcastInDim_apply _ _ _ (ix2 (0 : Fin 1) e) (ix1 e) (fun a => ?_)).trans ?_
  · match a with
    | ⟨0, _⟩ => rfl
  refine extractStridedSlice_apply _ _ _ (ix1 e) (ix1 e') (fun a => ?_)
  match a with
  | ⟨0, _⟩ => show e'.val = 0 + e.val; omega

/-- and row 1 the second. -/
theorem stack_apply1 (loc std : (⟨S1007616, .f32⟩ : BufTy).Contents (Elt F)) (e : Fin 1000000) (e' : Fin 1007616)
    (he : e'.val = e.val) : stack loc std (ix2 (1 : Fin 2) e) = std (ix1 e') := by
  unfold stack
  refine (concatenate_pair_apply_right (t := S2x1000000) (s₁ := S1x1000000) (s₂ := S1x1000000) (0 : Fin S2x1000000.rank) _ _ _ (ix2 (1 : Fin 2) e) rfl rfl (ix2 (0 : Fin 1) e) (fun b hb => ?_) ?_).trans ?_
  · match b with
    | ⟨0, _⟩ => exact absurd rfl hb
    | ⟨1, _⟩ => rfl
  · rfl
  refine (broadcastInDim_apply _ _ _ (ix2 (0 : Fin 1) e) (ix1 e) (fun a => ?_)).trans ?_
  · match a with
    | ⟨0, _⟩ => rfl
  refine extractStridedSlice_apply _ _ _ (ix1 e) (ix1 e') (fun a => ?_)
  match a with
  | ⟨0, _⟩ => show e'.val = 0 + e.val; omega

/-! ## The reference's closing arithmetic read at an entry -/

section Ref
open Cert.ReferenceIdeal

attribute [local irreducible] Host.reduceAdd

/-- The reduced axis of the per-edge products is the lane axis. -/
theorem reduces_lanes : Shape.Reduces Cert.ReferenceIdeal.S1000000x128 [1] Cert.ReferenceIdeal.S1000000 := by decide

/-- The host's sum over the lanes of the products, started from the zero constant, is the plain sum. -/
theorem dot_apply (u v : (⟨Cert.ReferenceIdeal.S1000000x128, .f32⟩ : BufTy).Contents (Elt Ideal)) (e : Fin 1000000) :
    Host.reduceAdd (F := Ideal) (mulf u v) (constant Cert.ReferenceIdeal.S_ .f32 0x00000000#32)
        Cert.ReferenceIdeal.Facts₀.reducesTo_S1000000x128_S1000000_d1 Cert.ReferenceIdeal.Facts₀.h_S_ (ix1 e)
      = ∑ k : Fin 128, u (ix2 e k) * v (ix2 e k) := by
  refine (hostReduceAdd_apply _ _ _ _ _).trans ?_
  refine (Ideal.hostReduceAdd_single _ reduces_lanes _ _ _).trans ?_
  rw [constant_apply, Ideal.ofBits_zero_f32, zero_add]
  refine Finset.sum_congr rfl (fun k _ => ?_)
  show u (reduces_lanes.lift (ix1 e) k) * v (reduces_lanes.lift (ix1 e) k) = _
  have hl : reduces_lanes.lift (ix1 e) k = ix2 e k := by
    funext a
    match a with
    | ⟨0, _⟩ => exact Fin.ext rfl
    | ⟨1, _⟩ => exact Fin.ext rfl
  rw [hl]
  rfl

/-- Row 0 of the reference's result: the dot product of the edge's two rows, times the two scales, plus the two biases. -/
theorem tail_apply0 (u v : (⟨Cert.ReferenceIdeal.S1000000x128, .f32⟩ : BufTy).Contents (Elt Ideal))
    (ssc sb ssd dsc db dsd : (⟨Cert.ReferenceIdeal.S1000000, .f32⟩ : BufTy).Contents (Elt Ideal)) (e : Fin 1000000) :
    Cert.ReferenceIdeal.RefValue.tail (F := Ideal) u v ssc sb ssd dsc db dsd (ix2 (0 : Fin 2) e)
      = (((∑ k : Fin 128, u (ix2 e k) * v (ix2 e k)) * ssc (ix1 e)) * dsc (ix1 e) + sb (ix1 e)) + db (ix1 e) := by
  unfold Cert.ReferenceIdeal.RefValue.tail
  refine (concatenate_pair_apply_left (t := Cert.ReferenceIdeal.S2x1000000) (s₁ := Cert.ReferenceIdeal.S1x1000000) (s₂ := Cert.ReferenceIdeal.S1x1000000) (0 : Fin Cert.ReferenceIdeal.S2x1000000.rank) _ _ _ (ix2 (0 : Fin 2) e) rfl (ix2 (0 : Fin 1) e) (fun b => ?_)).trans ?_
  · match b with
    | ⟨0, _⟩ => rfl
    | ⟨1, _⟩ => rfl
  refine (broadcastInDim_apply _ _ _ (ix2 (0 : Fin 1) e) (ix1 e) (fun a => ?_)).trans ?_
  · match a with
    | ⟨0, _⟩ => rfl
  rw [addf_apply, addf_apply, mulf_apply, mulf_apply, dot_apply]

/-- Row 1: the product of the two deviations. -/
theorem tail_apply1 (u v : (⟨Cert.ReferenceIdeal.S1000000x128, .f32⟩ : BufTy).Contents (Elt Ideal))
    (ssc sb ssd dsc db dsd : (⟨Cert.ReferenceIdeal.S1000000, .f32⟩ : BufTy).Contents (Elt Ideal)) (e : Fin 1000000) :
    Cert.ReferenceIdeal.RefValue.tail (F := Ideal) u v ssc sb ssd dsc db dsd (ix2 (1 : Fin 2) e) = ssd (ix1 e) * dsd (ix1 e) := by
  unfold Cert.ReferenceIdeal.RefValue.tail
  refine (concatenate_pair_apply_right (t := Cert.ReferenceIdeal.S2x1000000) (s₁ := Cert.ReferenceIdeal.S1x1000000) (s₂ := Cert.ReferenceIdeal.S1x1000000) (0 : Fin Cert.ReferenceIdeal.S2x1000000.rank) _ _ _ (ix2 (1 : Fin 2) e) rfl rfl (ix2 (0 : Fin 1) e) (fun b hb => ?_) ?_).trans ?_
  · match b with
    | ⟨0, _⟩ => exact absurd rfl hb
    | ⟨1, _⟩ => rfl
  · rfl
  refine (broadcastInDim_apply _ _ _ (ix2 (0 : Fin 1) e) (ix1 e) (fun a => ?_)).trans ?_
  · match a with
    | ⟨0, _⟩ => rfl
  exact mulf_apply _ _ _

end Ref

/-! ## The two sides are one function -/

/-- The kernel's stacked, cut-back result over padded operands is the reference's closing arithmetic over the
    unpadded ones. -/
theorem stack_eq_tail (u v : (⟨S1000000x128, .f32⟩ : BufTy).Contents (Elt Ideal))
    (ssc sb ssd dsc db dsd : (⟨S1000000, .f32⟩ : BufTy).Contents (Elt Ideal)) :
    stack (F := Ideal) (locP (padRows u) (padRows v) (padVec ssc) (padVec dsc) (padVec sb) (padVec db)) (stdP (padVec ssd) (padVec dsd))
      = Cert.ReferenceIdeal.RefValue.tail (F := Ideal) u v ssc sb ssd dsc db dsd := by
  funext j
  obtain ⟨r, e, rfl⟩ : ∃ (r : Fin 2) (e : Fin 1000000), j = ix2 r e := ⟨j 0, j 1, eq_ix2 j⟩
  have he : (⟨e.val, by omega⟩ : Fin 1007616).val = e.val := rfl
  match r with
  | ⟨0, _⟩ =>
    refine (stack_apply0 _ _ e ⟨e.val, by omega⟩ he).trans ?_
    refine Eq.trans ?_ (tail_apply0 u v ssc sb ssd dsc db dsd e).symm
    show (((∑ k : Fin 128, padRows u (ix2 (⟨e.val, by omega⟩ : Fin 1007616) k) * padRows v (ix2 (⟨e.val, by omega⟩ : Fin 1007616) k))
        * padVec ssc (ix1 ⟨e.val, by omega⟩)) * padVec dsc (ix1 ⟨e.val, by omega⟩) + padVec sb (ix1 ⟨e.val, by omega⟩)) + padVec db (ix1 ⟨e.val, by omega⟩) = _
    rw [padVec_apply ssc e _ he, padVec_apply dsc e _ he, padVec_apply sb e _ he, padVec_apply db e _ he]
    congr 4
    exact Finset.sum_congr rfl (fun k _ => by rw [padRows_apply u e k _ he, padRows_apply v e k _ he])
  | ⟨1, _⟩ =>
    refine (stack_apply1 _ _ e ⟨e.val, by omega⟩ he).trans ?_
    refine Eq.trans ?_ (tail_apply1 u v ssc sb ssd dsc db dsd e).symm
    show padVec ssd (ix1 ⟨e.val, by omega⟩) * padVec dsd (ix1 ⟨e.val, by omega⟩) = _
    rw [padVec_apply ssd e _ he, padVec_apply dsd e _ he]

end Cert.KernelIdeal.KValue

end
-- ==== Proof.Final.lean ====
/-
  The kernel's result as a function of its arguments, and the comparison with the reference. The result
  buffer holds the last host operations (cut back to a million entries, stack) of the combine kernel's two
  result arrays; those are, entry by entry, the dot-product-and-affine formula of the eight padded operand
  arrays; the operand arrays are the pads of the same host lookups the reference makes, the lookup into the
  projected gene embeddings reading the projection kernel's result array, which holds the reference's
  leaky_relu (gene_z · W + b). Chaining these, the kernel's result is the reference's result term at the same
  arguments: the lookups and the index normalisation are the same operations on both sides and are carried
  unopened.
-/
import proofs.«411593_j1855425872454_3_alg».proof.Proof.KRun
import proofs.«411593_j1855425872454_3_alg».proof.Proof.GeneProj
import proofs.«411593_j1855425872454_3_alg».proof.Proof.HostMid
import proofs.«411593_j1855425872454_3_alg».proof.Proof.Combine
import proofs.«411593_j1855425872454_3_alg».proof.Proof.Bridge
import Idealize.ShloMosaic.Lib.StableHlo.Run

noncomputable section

namespace Cert.KernelIdeal.KValue

open Cert.KernelIdeal Cert.KernelIdeal.Gen Idealize.ShloMosaic Idealize.ShloMosaic.TcCoe Idealize.SL.Sem Idealize.ShloMosaic.StableHlo

section AnyF
variable {F : FTy → Type} [FloatOps F]
variable (m : (ℓ : Loc nD τ sig) → Buf (Elt F) ℓ) (ρ : Dev nD → PrngReg)

/-- The result buffer after the last host operations: the two result arrays of the combine kernel cut back
    and stacked. -/
theorem w19_v84 (c : Dev nD) :
    W19 m ρ c (Proc.devRef .tc main_v84)
      = stack (W18 m ρ c (Proc.devRef .tc main_v79_0)) (W18 m ρ c (Proc.devRef .tc main_v79_1)) := by
  show StableHlo.after hostOps2 (W18 m ρ c) (Proc.devRef .tc main_v84) = _
  after_results
  rfl

end AnyF

/-! ## The lookups are the same operations in both programs -/

section Same
variable {F : FTy → Type} [FloatOps F]

theorem normIdx_eq (N : BitVec 32) (x : (⟨S1000000, .i32⟩ : BufTy).Contents (Elt F)) :
    normIdx N x = Cert.ReferenceIdeal.RefValue.normIdx N x := rfl
theorem rowsC_eq (x : (⟨S100000x128, .f32⟩ : BufTy).Contents (Elt F)) (i : (⟨S1000000x1, .i32⟩ : BufTy).Contents (Elt F)) :
    rowsC x i = Cert.ReferenceIdeal.RefValue.rowsC x i := rfl
theorem rowsG_eq (x : (⟨S20000x128, .f32⟩ : BufTy).Contents (Elt F)) (i : (⟨S1000000x1, .i32⟩ : BufTy).Contents (Elt F)) :
    rowsG x i = Cert.ReferenceIdeal.RefValue.rowsG x i := rfl
theorem takeC_eq {e : EltTy} (x : (⟨S100000, e⟩ : BufTy).Contents (Elt F)) (i : (⟨S1000000x1, .i32⟩ : BufTy).Contents (Elt F)) :
    takeC x i = Cert.ReferenceIdeal.RefValue.takeC x i := rfl
theorem takeG_eq {e : EltTy} (x : (⟨S20000, e⟩ : BufTy).Contents (Elt F)) (i : (⟨S1000000x1, .i32⟩ : BufTy).Contents (Elt F)) :
    takeG x i = Cert.ReferenceIdeal.RefValue.takeG x i := rfl

end Same

/-! ## The kernel's result is the reference's term -/

variable (m : (ℓ : Loc nD τ sig) → Buf (Elt Ideal) ℓ) (ρ : Dev nD → PrngReg)

theorem result_eq (c : Dev nD) :
    W19 (F := Ideal) m ρ c (Proc.devRef .tc main_v84)
      = Cert.ReferenceIdeal.RefValue.result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [w19_v84, w18_loc, w18_std, w17_v71, w17_v72, w17_v73, w17_v74, w17_v75, w17_v76, w17_v77, w17_v78, geneProj_eq,
    stack_eq_tail]
  simp only [normIdx_eq, rowsC_eq, rowsG_eq, takeC_eq, takeG_eq]
  rfl

/-- Every weakly fair execution of the kernel's @main terminates with the result buffer at the reference's
    result term of the argument arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v84) = Cert.ReferenceIdeal.RefValue.result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (result_eq m ρ c), (h c).2⟩) (run_result (F := Ideal) m ρ)

end Cert.KernelIdeal.KValue

end
-- ==== Proof.RefOps.lean ====
/- The reference program as the list of its host operations, in program order, every call of a module-local
   function replaced by the callee's operations over the call's buffer record (its parameters and record substituted).
   Each entry is the operation exactly as the printed program states it, ascribed the operations' type. -/
import proofs.«411593_j1855425872454_3_alg».proof.ReferenceIdeal

noncomputable section

namespace Cert.ReferenceIdeal.RefValue

open Cert.ReferenceIdeal Idealize.ShloMosaic Idealize.SL.Sem

variable {F : FTy → Type} [FloatOps F] [Facts]

open Facts₀ Facts

/-- The reference's 112 operations, in order. -/
abbrev ops : List (HloOp τ sig (Elt F)) :=
  [ (StableHlo.binary main_arg1 main_arg2 main_v0 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)) : HloOp τ sig (Elt F)),
    (StableHlo.unary main_arg3 main_v1 (broadcastInDim S1x128 ![1] bcast_S128_S1x128_1 : (⟨S128, .f32⟩ : BufTy).Contents (Elt F) → (⟨S1x128, .f32⟩ : BufTy).Contents (Elt F)) : HloOp τ sig (Elt F)),
    (StableHlo.unary main_v1 main_v2 (broadcastInDim S20000x128 ![0, 1] bcast_S1x128_S20000x128_0_1 : (⟨S1x128, .f32⟩ : BufTy).Contents (Elt F) → (⟨S20000x128, .f32⟩ : BufTy).Contents (Elt F)) : HloOp τ sig (Elt F)),
    (StableHlo.binary main_v0 main_v2 main_v3 (addf : (⟨S20000x128, .f32⟩ : BufTy).Contents (Elt F) → (⟨S20000x128, .f32⟩ : BufTy).Contents (Elt F) → (⟨S20000x128, .f32⟩ : BufTy).Contents (Elt F)) : HloOp τ sig (Elt F)),
    (StableHlo.TRef.nullary main_call0.cst (constant S_ .f32 0x00000000#32) : HloOp τ sig (Elt F)),
    (StableHlo.TRef.unary main_call0.cst main_call0.v0 (broadcastInDim S20000x128 ![] bcast_S_S20000x128) : HloOp τ sig (Elt F)),
    (StableHlo.TRef.binary (.of main_v3 : StableHlo.TRef sig ⟨S20000x128, .f32⟩) main_call0.v0 main_call0.v1 (cmpf .oge) : HloOp τ sig (Elt F)),
    (StableHlo.TRef.nullary main_call0.cst_0 (constant S_ .f32 0x3C23D70A#32) : HloOp τ sig (Elt F)),
    (StableHlo.TRef.unary main_call0.cst_0 main_call0.v2 (broadcastInDim S20000x128 ![] bcast_S_S20000x128) : HloOp τ sig (Elt F)),
    (StableHlo.TRef.binary main_call0.v2 (.of main_v3 : StableHlo.TRef sig ⟨S20000x128, .f32⟩) main_call0.v3 mulf : HloOp τ sig (Elt F)),
    (StableHlo.TRef.ternary main_call0.v1 (.of main_v3 : StableHlo.TRef sig ⟨S20000x128, .f32⟩) main_call0.v3 main_call0.call0.v0 select : HloOp τ sig (Elt F)),
    (StableHlo.nullary main_c (constantI S_ 32 0#32) : HloOp τ sig (Elt F)),
    (StableHlo.unary main_c main_v5 (broadcastInDim S1000000 ![] bcast_S_S1000000 : (⟨S_, .i32⟩ : BufTy).Contents (Elt F) → (⟨S1000000, .i32⟩ : BufTy).Contents (Elt F)) : HloOp τ sig (Elt F)),
    (StableHlo.binary main_arg10 main_v5 main_v6 (cmpi .slt : (⟨S1000000, .i32⟩ : BufTy).Contents (Elt F) → (⟨S1000000, .i32⟩ : BufTy).Contents (Elt F) → (⟨S1000000, .i1⟩ : BufTy).Contents (Elt F)) : HloOp τ sig (Elt F)),
    (StableHlo.nullary main_c_0 (constantI S_ 32 100000#32) : HloOp τ sig (Elt F)),
    (StableHlo.unary main_c_0 main_v7 (broadcastInDim S1000000 ![] bcast_S_S1000000 : (⟨S_, .i32⟩ : BufTy).Contents (Elt F) → (⟨S1000000, .i32⟩ : BufTy).Contents (Elt F)) : HloOp τ sig (Elt F)),
    (StableHlo.binary main_arg10 main_v7 main_v8 (addi : (⟨S1000000, .i32⟩ : BufTy).Contents (Elt F) → (⟨S1000000, .i32⟩ : BufTy).Contents (Elt F) → (⟨S1000000, .i32⟩ : BufTy).Contents (Elt F)) : HloOp τ sig (Elt F)),
    (StableHlo.ternary main_v6 main_v8 main_arg10 main_v9 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) : HloOp τ sig (Elt F)),
    (StableHlo.unary main_v9 main_v10 (broadcastInDim S1000000x1 ![0] bcast_S1000000_S1000000x1_0 : (⟨S1000000, .i32⟩ : BufTy).Contents (Elt F) → (⟨S1000000x1, .i32⟩ : BufTy).Contents (Elt F)) : HloOp τ sig (Elt F)),
    (StableHlo.binary main_arg0 main_v10 main_v11 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)) : HloOp τ sig (Elt F)),
    (StableHlo.nullary main_c_1 (constantI S_ 32 0#32) : HloOp τ sig (Elt F)),
    (StableHlo.unary main_c_1 main_v12 (broadcastInDim S1000000 ![] bcast_S_S1000000 : (⟨S_, .i32⟩ : BufTy).Contents (Elt F) → (⟨S1000000, .i32⟩ : BufTy).Contents (Elt F)) : HloOp τ sig (Elt F)),
    (StableHlo.binary main_arg11 main_v12 main_v13 (cmpi .slt : (⟨S1000000, .i32⟩ : BufTy).Contents (Elt F) → (⟨S1000000, .i32⟩ : BufTy).Contents (Elt F) → (⟨S1000000, .i1⟩ : BufTy).Contents (Elt F)) : HloOp τ sig (Elt F)),
    (StableHlo.nullary main_c_2 (constantI S_ 32 20000#32) : HloOp τ sig (Elt F)),
    (StableHlo.unary main_c_2 main_v14 (broadcastInDim S1000000 ![] bcast_S_S1000000 : (⟨S_, .i32⟩ : BufTy).Contents (Elt F) → (⟨S1000000, .i32⟩ : BufTy).Contents (Elt F)) : HloOp τ sig (Elt F)),
    (StableHlo.binary main_arg11 main_v14 main_v15 (addi : (⟨S1000000, .i32⟩ : BufTy).Contents (Elt F) → (⟨S1000000, .i32⟩ : BufTy).Contents (Elt F) → (⟨S1000000, .i32⟩ : BufTy).Contents (Elt F)) : HloOp τ sig (Elt F)),
    (StableHlo.ternary main_v13 main_v15 main_arg11 main_v16 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) : HloOp τ sig (Elt F)),
    (StableHlo.unary main_v16 main_v17 (broadcastInDim S1000000x1 ![0] bcast_S1000000_S1000000x1_0 : (⟨S1000000, .i32⟩ : BufTy).Contents (Elt F) → (⟨S1000000x1, .i32⟩ : BufTy).Contents (Elt F)) : HloOp τ sig (Elt F)),
    (StableHlo.binary main_v4 main_v17 main_v18 ((fun x i => Host.gather gather_S20000x128_S1000000x1_S1000000x128_1_0_n_n_0_1_1128 x i) : (⟨S20000x128, .f32⟩ : BufTy).Contents (Elt F) → (⟨S1000000x1, .i32⟩ : BufTy).Contents (Elt F) → (⟨S1000000x128, .f32⟩ : BufTy).Contents (Elt F)) : HloOp τ sig (Elt F)),
    (StableHlo.nullary main_c_3 (constantI S_ 32 0#32) : HloOp τ sig (Elt F)),
    (StableHlo.unary main_c_3 main_v19 (broadcastInDim S1000000 ![] bcast_S_S1000000 : (⟨S_, .i32⟩ : BufTy).Contents (Elt F) → (⟨S1000000, .i32⟩ : BufTy).Contents (Elt F)) : HloOp τ sig (Elt F)),
    (StableHlo.binary main_arg10 main_v19 main_v20 (cmpi .slt : (⟨S1000000, .i32⟩ : BufTy).Contents (Elt F) → (⟨S1000000, .i32⟩ : BufTy).Contents (Elt F) → (⟨S1000000, .i1⟩ : BufTy).Contents (Elt F)) : HloOp τ sig (Elt F)),
    (StableHlo.nullary main_c_4 (constantI S_ 32 100000#32) : HloOp τ sig (Elt F)),
    (StableHlo.unary main_c_4 main_v21 (broadcastInDim S1000000 ![] bcast_S_S1000000 : (⟨S_, .i32⟩ : BufTy).Contents (Elt F) → (⟨S1000000, .i32⟩ : BufTy).Contents (Elt F)) : HloOp τ sig (Elt F)),
    (StableHlo.binary main_arg10 main_v21 main_v22 (addi : (⟨S1000000, .i32⟩ : BufTy).Contents (Elt F) → (⟨S1000000, .i32⟩ : BufTy).Contents (Elt F) → (⟨S1000000, .i32⟩ : BufTy).Contents (Elt F)) : HloOp τ sig (Elt F)),
    (StableHlo.ternary main_v20 main_v22 main_arg10 main_v23 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) : HloOp τ sig (Elt F)),
    (StableHlo.unary main_v23 main_v24 (broadcastInDim S1000000x1 ![0] bcast_S1000000_S1000000x1_0 : (⟨S1000000, .i32⟩ : BufTy).Contents (Elt F) → (⟨S1000000x1, .i32⟩ : BufTy).Contents (Elt F)) : HloOp τ sig (Elt F)),
    (StableHlo.binary main_arg12 main_v24 main_v25 ((fun x i => Host.gather gather_S100000_S1000000x1_S1000000_n_0_n_n_0_1_1 x i) : (⟨S100000, .i32⟩ : BufTy).Contents (Elt F) → (⟨S1000000x1, .i32⟩ : BufTy).Contents (Elt F) → (⟨S1000000, .i32⟩ : BufTy).Contents (Elt F)) : HloOp τ sig (Elt F)),
    (StableHlo.nullary main_c_5 (constantI S_ 32 0#32) : HloOp τ sig (Elt F)),
    (StableHlo.unary main_c_5 main_v26 (broadcastInDim S1000000 ![] bcast_S_S1000000 : (⟨S_, .i32⟩ : BufTy).Contents (Elt F) → (⟨S1000000, .i32⟩ : BufTy).Contents (Elt F)) : HloOp τ sig (Elt F)),
    (StableHlo.binary main_arg11 main_v26 main_v27 (cmpi .slt : (⟨S1000000, .i32⟩ : BufTy).Contents (Elt F) → (⟨S1000000, .i32⟩ : BufTy).Contents (Elt F) → (⟨S1000000, .i1⟩ : BufTy).Contents (Elt F)) : HloOp τ sig (Elt F)),
    (StableHlo.nullary main_c_6 (constantI S_ 32 20000#32) : HloOp τ sig (Elt F)),
    (StableHlo.unary main_c_6 main_v28 (broadcastInDim S1000000 ![] bcast_S_S1000000 : (⟨S_, .i32⟩ : BufTy).Contents (Elt F) → (⟨S1000000, .i32⟩ : BufTy).Contents (Elt F)) : HloOp τ sig (Elt F)),
    (StableHlo.binary main_arg11 main_v28 main_v29 (addi : (⟨S1000000, .i32⟩ : BufTy).Contents (Elt F) → (⟨S1000000, .i32⟩ : BufTy).Contents (Elt F) → (⟨S1000000, .i32⟩ : BufTy).Contents (Elt F)) : HloOp τ sig (Elt F)),
    (StableHlo.ternary main_v27 main_v29 main_arg11 main_v30 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) : HloOp τ sig (Elt F)),
    (StableHlo.unary main_v30 main_v31 (broadcastInDim S1000000x1 ![0] bcast_S1000000_S1000000x1_0 : (⟨S1000000, .i32⟩ : BufTy).Contents (Elt F) → (⟨S1000000x1, .i32⟩ : BufTy).Contents (Elt F)) : HloOp τ sig (Elt F)),
    (StableHlo.binary main_arg13 main_v31 main_v32 ((fun x i => Host.gather gather_S20000_S1000000x1_S1000000_n_0_n_n_0_1_1 x i) : (⟨S20000, .i32⟩ : BufTy).Contents (Elt F) → (⟨S1000000x1, .i32⟩ : BufTy).Contents (Elt F) → (⟨S1000000, .i32⟩ : BufTy).Contents (Elt F)) : HloOp τ sig (Elt F)),
    (StableHlo.nullary main_c_7 (constantI S_ 32 0#32) : HloOp τ sig (Elt F)),
    (StableHlo.unary main_c_7 main_v33 (broadcastInDim S1000000 ![] bcast_S_S1000000 : (⟨S_, .i32⟩ : BufTy).Contents (Elt F) → (⟨S1000000, .i32⟩ : BufTy).Contents (Elt F)) : HloOp τ sig (Elt F)),
    (StableHlo.binary main_v25 main_v33 main_v34 (cmpi .slt : (⟨S1000000, .i32⟩ : BufTy).Contents (Elt F) → (⟨S1000000, .i32⟩ : BufTy).Contents (Elt F) → (⟨S1000000, .i1⟩ : BufTy).Contents (Elt F)) : HloOp τ sig (Elt F)),
    (StableHlo.nullary main_c_8 (constantI S_ 32 100000#32) : HloOp τ sig (Elt F)),
    (StableHlo.unary main_c_8 main_v35 (broadcastInDim S1000000 ![] bcast_S_S1000000 : (⟨S_, .i32⟩ : BufTy).Contents (Elt F) → (⟨S1000000, .i32⟩ : BufTy).Contents (Elt F)) : HloOp τ sig (Elt F)),
    (StableHlo.binary main_v25 main_v35 main_v36 (addi : (⟨S1000000, .i32⟩ : BufTy).Contents (Elt F) → (⟨S1000000, .i32⟩ : BufTy).Contents (Elt F) → (⟨S1000000, .i32⟩ : BufTy).Contents (Elt F)) : HloOp τ sig (Elt F)),
    (StableHlo.ternary main_v34 main_v36 main_v25 main_v37 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) : HloOp τ sig (Elt F)),
    (StableHlo.unary main_v37 main_v38 (broadcastInDim S1000000x1 ![0] bcast_S1000000_S1000000x1_0 : (⟨S1000000, .i32⟩ : BufTy).Contents (Elt F) → (⟨S1000000x1, .i32⟩ : BufTy).Contents (Elt F)) : HloOp τ sig (Elt F)),
    (StableHlo.binary main_arg4 main_v38 main_v39 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)) : HloOp τ sig (Elt F)),
    (StableHlo.nullary main_c_9 (constantI S_ 32 0#32) : HloOp τ sig (Elt F)),
    (StableHlo.unary main_c_9 main_v40 (broadcastInDim S1000000 ![] bcast_S_S1000000 : (⟨S_, .i32⟩ : BufTy).Contents (Elt F) → (⟨S1000000, .i32⟩ : BufTy).Contents (Elt F)) : HloOp τ sig (Elt F)),
    (StableHlo.binary main_v25 main_v40 main_v41 (cmpi .slt : (⟨S1000000, .i32⟩ : BufTy).Contents (Elt F) → (⟨S1000000, .i32⟩ : BufTy).Contents (Elt F) → (⟨S1000000, .i1⟩ : BufTy).Contents (Elt F)) : HloOp τ sig (Elt F)),
    (StableHlo.nullary main_c_10 (constantI S_ 32 100000#32) : HloOp τ sig (Elt F)),
    (StableHlo.unary main_c_10 main_v42 (broadcastInDim S1000000 ![] bcast_S_S1000000 : (⟨S_, .i32⟩ : BufTy).Contents (Elt F) → (⟨S1000000, .i32⟩ : BufTy).Contents (Elt F)) : HloOp τ sig (Elt F)),
    (StableHlo.binary main_v25 main_v42 main_v43 (addi : (⟨S1000000, .i32⟩ : BufTy).Contents (Elt F) → (⟨S1000000, .i32⟩ : BufTy).Contents (Elt F) → (⟨S1000000, .i32⟩ : BufTy).Contents (Elt F)) : HloOp τ sig (Elt F)),
    (StableHlo.ternary main_v41 main_v43 main_v25 main_v44 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) : HloOp τ sig (Elt F)),
    (StableHlo.unary main_v44 main_v45 (broadcastInDim S1000000x1 ![0] bcast_S1000000_S1000000x1_0 : (⟨S1000000, .i32⟩ : BufTy).Contents (Elt F) → (⟨S1000000x1, .i32⟩ : BufTy).Contents (Elt F)) : HloOp τ sig (Elt F)),
    (StableHlo.binary main_arg5 main_v45 main_v46 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)) : HloOp τ sig (Elt F)),
    (StableHlo.nullary main_c_11 (constantI S_ 32 0#32) : HloOp τ sig (Elt F)),
    (StableHlo.unary main_c_11 main_v47 (broadcastInDim S1000000 ![] bcast_S_S1000000 : (⟨S_, .i32⟩ : BufTy).Contents (Elt F) → (⟨S1000000, .i32⟩ : BufTy).Contents (Elt F)) : HloOp τ sig (Elt F)),
    (StableHlo.binary main_v25 main_v47 main_v48 (cmpi .slt : (⟨S1000000, .i32⟩ : BufTy).Contents (Elt F) → (⟨S1000000, .i32⟩ : BufTy).Contents (Elt F) → (⟨S1000000, .i1⟩ : BufTy).Contents (Elt F)) : HloOp τ sig (Elt F)),
    (StableHlo.nullary main_c_12 (constantI S_ 32 100000#32) : HloOp τ sig (Elt F)),
    (StableHlo.unary main_c_12 main_v49 (broadcastInDim S1000000 ![] bcast_S_S1000000 : (⟨S_, .i32⟩ : BufTy).Contents (Elt F) → (⟨S1000000, .i32⟩ : BufTy).Contents (Elt F)) : HloOp τ sig (Elt F)),
    (StableHlo.binary main_v25 main_v49 main_v50 (addi : (⟨S1000000, .i32⟩ : BufTy).Contents (Elt F) → (⟨S1000000, .i32⟩ : BufTy).Contents (Elt F) → (⟨S1000000, .i32⟩ : BufTy).Contents (Elt F)) : HloOp τ sig (Elt F)),
    (StableHlo.ternary main_v48 main_v50 main_v25 main_v51 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) : HloOp τ sig (Elt F)),
    (StableHlo.unary main_v51 main_v52 (broadcastInDim S1000000x1 ![0] bcast_S1000000_S1000000x1_0 : (⟨S1000000, .i32⟩ : BufTy).Contents (Elt F) → (⟨S1000000x1, .i32⟩ : BufTy).Contents (Elt F)) : HloOp τ sig (Elt F)),
    (StableHlo.binary main_arg6 main_v52 main_v53 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)) : HloOp τ sig (Elt F)),
    (StableHlo.nullary main_c_13 (constantI S_ 32 0#32) : HloOp τ sig (Elt F)),
    (StableHlo.unary main_c_13 main_v54 (broadcastInDim S1000000 ![] bcast_S_S1000000 : (⟨S_, .i32⟩ : BufTy).Contents (Elt F) → (⟨S1000000, .i32⟩ : BufTy).Contents (Elt F)) : HloOp τ sig (Elt F)),
    (StableHlo.binary main_v32 main_v54 main_v55 (cmpi .slt : (⟨S1000000, .i32⟩ : BufTy).Contents (Elt F) → (⟨S1000000, .i32⟩ : BufTy).Contents (Elt F) → (⟨S1000000, .i1⟩ : BufTy).Contents (Elt F)) : HloOp τ sig (Elt F)),
    (StableHlo.nullary main_c_14 (constantI S_ 32 20000#32) : HloOp τ sig (Elt F)),
    (StableHlo.unary main_c_14 main_v56 (broadcastInDim S1000000 ![] bcast_S_S1000000 : (⟨S_, .i32⟩ : BufTy).Contents (Elt F) → (⟨S1000000, .i32⟩ : BufTy).Contents (Elt F)) : HloOp τ sig (Elt F)),
    (StableHlo.binary main_v32 main_v56 main_v57 (addi : (⟨S1000000, .i32⟩ : BufTy).Contents (Elt F) → (⟨S1000000, .i32⟩ : BufTy).Contents (Elt F) → (⟨S1000000, .i32⟩ : BufTy).Contents (Elt F)) : HloOp τ sig (Elt F)),
    (StableHlo.ternary main_v55 main_v57 main_v32 main_v58 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) : HloOp τ sig (Elt F)),
    (StableHlo.unary main_v58 main_v59 (broadcastInDim S1000000x1 ![0] bcast_S1000000_S1000000x1_0 : (⟨S1000000, .i32⟩ : BufTy).Contents (Elt F) → (⟨S1000000x1, .i32⟩ : BufTy).Contents (Elt F)) : HloOp τ sig (Elt F)),
    (StableHlo.binary main_arg7 main_v59 main_v60 ((fun x i => Host.gather gather_S20000_S1000000x1_S1000000_n_0_n_n_0_1_1 x i) : (⟨S20000, .f32⟩ : BufTy).Contents (Elt F) → (⟨S1000000x1, .i32⟩ : BufTy).Contents (Elt F) → (⟨S1000000, .f32⟩ : BufTy).Contents (Elt F)) : HloOp τ sig (Elt F)),
    (StableHlo.nullary main_c_15 (constantI S_ 32 0#32) : HloOp τ sig (Elt F)),
    (StableHlo.unary main_c_15 main_v61 (broadcastInDim S1000000 ![] bcast_S_S1000000 : (⟨S_, .i32⟩ : BufTy).Contents (Elt F) → (⟨S1000000, .i32⟩ : BufTy).Contents (Elt F)) : HloOp τ sig (Elt F)),
    (StableHlo.binary main_v32 main_v61 main_v62 (cmpi .slt : (⟨S1000000, .i32⟩ : BufTy).Contents (Elt F) → (⟨S1000000, .i32⟩ : BufTy).Contents (Elt F) → (⟨S1000000, .i1⟩ : BufTy).Contents (Elt F)) : HloOp τ sig (Elt F)),
    (StableHlo.nullary main_c_16 (constantI S_ 32 20000#32) : HloOp τ sig (Elt F)),
    (StableHlo.unary main_c_16 main_v63 (broadcastInDim S1000000 ![] bcast_S_S1000000 : (⟨S_, .i32⟩ : BufTy).Contents (Elt F) → (⟨S1000000, .i32⟩ : BufTy).Contents (Elt F)) : HloOp τ sig (Elt F)),
    (StableHlo.binary main_v32 main_v63 main_v64 (addi : (⟨S1000000, .i32⟩ : BufTy).Contents (Elt F) → (⟨S1000000, .i32⟩ : BufTy).Contents (Elt F) → (⟨S1000000, .i32⟩ : BufTy).Contents (Elt F)) : HloOp τ sig (Elt F)),
    (StableHlo.ternary main_v62 main_v64 main_v32 main_v65 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) : HloOp τ sig (Elt F)),
    (StableHlo.unary main_v65 main_v66 (broadcastInDim S1000000x1 ![0] bcast_S1000000_S1000000x1_0 : (⟨S1000000, .i32⟩ : BufTy).Contents (Elt F) → (⟨S1000000x1, .i32⟩ : BufTy).Contents (Elt F)) : HloOp τ sig (Elt F)),
    (StableHlo.binary main_arg8 main_v66 main_v67 ((fun x i => Host.gather gather_S20000_S1000000x1_S1000000_n_0_n_n_0_1_1 x i) : (⟨S20000, .f32⟩ : BufTy).Contents (Elt F) → (⟨S1000000x1, .i32⟩ : BufTy).Contents (Elt F) → (⟨S1000000, .f32⟩ : BufTy).Contents (Elt F)) : HloOp τ sig (Elt F)),
    (StableHlo.nullary main_c_17 (constantI S_ 32 0#32) : HloOp τ sig (Elt F)),
    (StableHlo.unary main_c_17 main_v68 (broadcastInDim S1000000 ![] bcast_S_S1000000 : (⟨S_, .i32⟩ : BufTy).Contents (Elt F) → (⟨S1000000, .i32⟩ : BufTy).Contents (Elt F)) : HloOp τ sig (Elt F)),
    (StableHlo.binary main_v32 main_v68 main_v69 (cmpi .slt : (⟨S1000000, .i32⟩ : BufTy).Contents (Elt F) → (⟨S1000000, .i32⟩ : BufTy).Contents (Elt F) → (⟨S1000000, .i1⟩ : BufTy).Contents (Elt F)) : HloOp τ sig (Elt F)),
    (StableHlo.nullary main_c_18 (constantI S_ 32 20000#32) : HloOp τ sig (Elt F)),
    (StableHlo.unary main_c_18 main_v70 (broadcastInDim S1000000 ![] bcast_S_S1000000 : (⟨S_, .i32⟩ : BufTy).Contents (Elt F) → (⟨S1000000, .i32⟩ : BufTy).Contents (Elt F)) : HloOp τ sig (Elt F)),
    (StableHlo.binary main_v32 main_v70 main_v71 (addi : (⟨S1000000, .i32⟩ : BufTy).Contents (Elt F) → (⟨S1000000, .i32⟩ : BufTy).Contents (Elt F) → (⟨S1000000, .i32⟩ : BufTy).Contents (Elt F)) : HloOp τ sig (Elt F)),
    (StableHlo.ternary main_v69 main_v71 main_v32 main_v72 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) : HloOp τ sig (Elt F)),
    (StableHlo.unary main_v72 main_v73 (broadcastInDim S1000000x1 ![0] bcast_S1000000_S1000000x1_0 : (⟨S1000000, .i32⟩ : BufTy).Contents (Elt F) → (⟨S1000000x1, .i32⟩ : BufTy).Contents (Elt F)) : HloOp τ sig (Elt F)),
    (StableHlo.binary main_arg9 main_v73 main_v74 ((fun x i => Host.gather gather_S20000_S1000000x1_S1000000_n_0_n_n_0_1_1 x i) : (⟨S20000, .f32⟩ : BufTy).Contents (Elt F) → (⟨S1000000x1, .i32⟩ : BufTy).Contents (Elt F) → (⟨S1000000, .f32⟩ : BufTy).Contents (Elt F)) : HloOp τ sig (Elt F)),
    (StableHlo.binary main_v11 main_v18 main_v75 (mulf : (⟨S1000000x128, .f32⟩ : BufTy).Contents (Elt F) → (⟨S1000000x128, .f32⟩ : BufTy).Contents (Elt F) → (⟨S1000000x128, .f32⟩ : BufTy).Contents (Elt F)) : HloOp τ sig (Elt F)),
    (StableHlo.nullary main_cst (constant S_ .f32 0x00000000#32) : HloOp τ sig (Elt F)),
    (StableHlo.binary main_v75 main_cst main_v76 ((fun x v => Host.reduceAdd x v reducesTo_S1000000x128_S1000000_d1 h_S_) : (⟨S1000000x128, .f32⟩ : BufTy).Contents (Elt F) → (⟨S_, .f32⟩ : BufTy).Contents (Elt F) → (⟨S1000000, .f32⟩ : BufTy).Contents (Elt F)) : HloOp τ sig (Elt F)),
    (StableHlo.binary main_v76 main_v39 main_v77 (mulf : (⟨S1000000, .f32⟩ : BufTy).Contents (Elt F) → (⟨S1000000, .f32⟩ : BufTy).Contents (Elt F) → (⟨S1000000, .f32⟩ : BufTy).Contents (Elt F)) : HloOp τ sig (Elt F)),
    (StableHlo.binary main_v77 main_v60 main_v78 (mulf : (⟨S1000000, .f32⟩ : BufTy).Contents (Elt F) → (⟨S1000000, .f32⟩ : BufTy).Contents (Elt F) → (⟨S1000000, .f32⟩ : BufTy).Contents (Elt F)) : HloOp τ sig (Elt F)),
    (StableHlo.binary main_v78 main_v46 main_v79 (addf : (⟨S1000000, .f32⟩ : BufTy).Contents (Elt F) → (⟨S1000000, .f32⟩ : BufTy).Contents (Elt F) → (⟨S1000000, .f32⟩ : BufTy).Contents (Elt F)) : HloOp τ sig (Elt F)),
    (StableHlo.binary main_v79 main_v67 main_v80 (addf : (⟨S1000000, .f32⟩ : BufTy).Contents (Elt F) → (⟨S1000000, .f32⟩ : BufTy).Contents (Elt F) → (⟨S1000000, .f32⟩ : BufTy).Contents (Elt F)) : HloOp τ sig (Elt F)),
    (StableHlo.binary main_v53 main_v74 main_v81 (mulf : (⟨S1000000, .f32⟩ : BufTy).Contents (Elt F) → (⟨S1000000, .f32⟩ : BufTy).Contents (Elt F) → (⟨S1000000, .f32⟩ : BufTy).Contents (Elt F)) : HloOp τ sig (Elt F)),
    (StableHlo.unary main_v80 main_v82 (broadcastInDim S1x1000000 ![1] bcast_S1000000_S1x1000000_1 : (⟨S1000000, .f32⟩ : BufTy).Contents (Elt F) → (⟨S1x1000000, .f32⟩ : BufTy).Contents (Elt F)) : HloOp τ sig (Elt F)),
    (StableHlo.unary main_v81 main_v83 (broadcastInDim S1x1000000 ![1] bcast_S1000000_S1x1000000_1 : (⟨S1000000, .f32⟩ : BufTy).Contents (Elt F) → (⟨S1x1000000, .f32⟩ : BufTy).Contents (Elt F)) : HloOp τ sig (Elt F)),
    (StableHlo.binary main_v82 main_v83 main_v84 ((fun a b => concatenate S2x1000000 0 [⟨S1x1000000, a⟩, ⟨S1x1000000, b⟩] concatenates_S1x1000000_S1x1000000_S2x1000000_d0) : (⟨S1x1000000, .f32⟩ : BufTy).Contents (Elt F) → (⟨S1x1000000, .f32⟩ : BufTy).Contents (Elt F) → (⟨S2x1000000, .f32⟩ : BufTy).Contents (Elt F)) : HloOp τ sig (Elt F)) ]

end Cert.ReferenceIdeal.RefValue

end
-- ==== Proof.RefRun.lean ====
/-
  The reference is a straight line of whole-array operations: 112 of them once its two outlined helper
  functions (the leaky rectifier, and the elementwise selection the rectifier calls) are written out where
  they are called, each over the buffers that call owns. This module proves what that line computes.

  (1) The program IS the sequence of the listed operations: unfolding its two windows and the two function
      bodies, and regrouping the sequencing, leaves the same chain of steps.
  (2) Every operation touches buffers of the one core only, and none of them is scoped. So the theorem about
      straight lines applies: from any memory with zero counters every weakly fair execution terminates, and
      each buffer ends at the fold of the operations' effects over what the buffers held at the start.
  (3) That fold is evaluated at the result buffer. An operation leaves its function of its operands' contents
      in the buffer it writes and every other buffer as it was; composing this from the last operation back to
      the arguments gives one term in the fourteen argument arrays. The last operation stacks two rows, and its
      operands sit in a list on which the stacking's shape evidence depends, so it is taken off first and the
      two rows are evaluated separately. Each row is then, stage by stage, the term the specification names:
      the index normalisation (a negative index counts from the end), the row and entry lookups, the projected
      gene embeddings, the per-edge dot product scaled and shifted, and the product of the two deviations.
      Only the names are unfolded; no lookup, sum or product is ever computed.
  (4) No operation writes an argument's buffer, so every argument ends as it started.
-/
import proofs.«411593_j1855425872454_3_alg».proof.Proof.Gen.ReferenceIdeal
import proofs.«411593_j1855425872454_3_alg».proof.Proof.RefSpec
import proofs.«411593_j1855425872454_3_alg».proof.Proof.RefOps
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The program is the sequence of its operations -/

-- 112 steps: unfolding and comparing the two chains recurses once per step
set_option maxRecDepth 8192 in
set_option maxHeartbeats 4000000 in
/-- The program is that straight line: its two windows run in order, the rectifier's body unfolded at its call
    and the selection's inside it, are the same chain of steps as the sequence of the listed operations (the
    sequencing of a free program regroups by computation). -/
theorem main_eq (c : Dev nD) : main (F := F) c = seq ops := by
  unfold main main_part0 main_part1 fn_leaky_relu.body fn_where.body
  rfl

/-- No buffer of the core is scoped. -/
theorem scopedRefs_eq : (Finset.univ.filter fun b : Ref sig .tc => b.isScoped) = ∅ := by decide
/-- No semaphore of the core is scoped. -/
theorem scopedSems_eq : (Finset.univ.filter fun sm : SemLoc sig => sm.isScoped .tc) = ∅ := by decide

set_option maxRecDepth 8192 in
set_option maxHeartbeats 1000000 in
/-- Every operation touches buffers of the core only: each is built from references of the core. -/
theorem ops_sub : (ops : List (HloOp τ sig (Elt F))).Forall fun op => op.bufs ⊆ tcRefs τ sig := by
  simp only [ops, List.Forall, nullary_bufs_sub, unary_bufs_sub, binary_bufs_sub, ternary_bufs_sub, and_self]

/-! ## What the buffers hold after the line -/

set_option maxRecDepth 8192 in
set_option maxHeartbeats 4000000 in
/-- No operation writes an argument's buffer: after the line each argument holds what it held. -/
theorem args_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig)
    ∧ after ops V (main_arg10 : DevRef τ sig) = V (main_arg10 : DevRef τ sig)
    ∧ after ops V (main_arg11 : DevRef τ sig) = V (main_arg11 : DevRef τ sig)
    ∧ after ops V (main_arg12 : DevRef τ sig) = V (main_arg12 : DevRef τ sig)
    ∧ after ops V (main_arg13 : DevRef τ sig) = V (main_arg13 : DevRef τ sig) := by
  refine ⟨?_, ?_, ?_, ?_, ?_, ?_, ?_, ?_, ?_, ?_, ?_, ?_, ?_, ?_⟩ <;> after_results_simp

/-- Stacking two arrays of one shape respects equality of the two arrays: the stacking's shape evidence speaks
    of the two shapes only, so it serves both sides. -/
theorem concat2_congr {α : Type} {s t : Shape} {ax : Fin t.rank} {a a' b b' : s.Idx → α} (h : Shape.Concatenates [s, s] t ax)
    (ha : a = a') (hb : b = b') :
    concatenate t ax [⟨s, a⟩, ⟨s, b⟩] h = concatenate t ax [⟨s, a'⟩, ⟨s, b'⟩] h := by
  subst ha hb; rfl

set_option maxRecDepth 8192 in
set_option maxHeartbeats 1000000 in
/-- After the line the result buffer holds the specification's `result` of the arguments' contents. The last
    operation stacks the location row over the deviation row; under it, each row's buffer is evaluated by
    reading every operation's result at the buffer it writes and passing over every other one. What is left
    is the composed term of the arguments — the rectifier's typed buffers read at their own types, which moves
    nothing — and it is the named stages' term once the names are unfolded. -/
theorem out_eq (V : Valuation τ sig (Elt F)) :
    after ops V (main_v84 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) (V (main_arg13 : DevRef τ sig)) := by
  simp only [ops, after_cons, after_nil]
  rw [binary_result]
  beta_reduce
  unfold result tail
  refine concat2_congr _ ?_ ?_
  · after_results_simp
    simp only [TRef.toBuf, TRef.ofBuf, cast_eq]
    unfold rowsC rowsG takeC takeG normIdx geneProj leaky
    with_reducible rfl
  · after_results_simp
    unfold takeC takeG normIdx
    with_reducible rfl

/-! ## The run -/

set_option maxRecDepth 8192 in
set_option maxHeartbeats 4000000 in
/-- From any memory with zero counters every weakly fair execution of the reference terminates with its result
    at `result` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
      have a := args_eq (launchContents m c)
      ⟨(h c main_v84).trans (out_eq _), (h c main_arg0).trans a.1, (h c main_arg1).trans a.2.1,
        (h c main_arg2).trans a.2.2.1, (h c main_arg3).trans a.2.2.2.1, (h c main_arg4).trans a.2.2.2.2.1,
        (h c main_arg5).trans a.2.2.2.2.2.1, (h c main_arg6).trans a.2.2.2.2.2.2.1,
        (h c main_arg7).trans a.2.2.2.2.2.2.2.1, (h c main_arg8).trans a.2.2.2.2.2.2.2.2.1,
        (h c main_arg9).trans a.2.2.2.2.2.2.2.2.2.1, (h c main_arg10).trans a.2.2.2.2.2.2.2.2.2.2.1,
        (h c main_arg11).trans a.2.2.2.2.2.2.2.2.2.2.2.1, (h c main_arg12).trans a.2.2.2.2.2.2.2.2.2.2.2.2.1,
        (h c main_arg13).trans a.2.2.2.2.2.2.2.2.2.2.2.2.2⟩)
    (run_seq scopedRefs_eq scopedSems_eq defs main (fun _ => ops) main_eq (fun _ => ops_sub) m ρ)

end Cert.ReferenceIdeal.RefValue

end
-- ==== Proof.lean ====
/-
  The certificate of the relational edge-distribution decoder: per edge e of a cell–gene graph
    loc e = ((Σ_k cell_z[src e, k] · proj[dst e, k]) · s_sc e) · d_sc e + s_b e + d_b e,   std e = s_sd e · d_sd e,
  with proj = leaky_relu (gene_z · W + b) and the six per-edge scalars looked up through the node-id tables.
  The kernel computes proj in one tiled matmul kernel, gathers and pads the per-edge operands on the host, and
  combines them in a second kernel over blocks of 8192 edges; the reference is the plain jnp formula.
  The three frames: the two kernel programs' are the generated frame certificates, the reference's is its run
  with the result dropped. The idealization rewrote nothing, so `preserves` is trivial. For the algebraic claim
  both runs are stated with the SAME result term — the reference's `result` of the argument arrays
  (Proof/RefSpec.lean): the reference's run ends there by reading its operations back (Proof/RefRun.lean), the
  kernel's by the chain of Proof/Final.lean (blocks to arrays, the padded lookups, the combine formula entry by
  entry, and the one law 0 + x = x between the lane sum and the host's sum from a zero start).
-/
import proofs.«411593_j1855425872454_3_alg».proof.Defs
import proofs.«411593_j1855425872454_3_alg».proof.Proof.Gen.Kernel
import proofs.«411593_j1855425872454_3_alg».proof.Proof.Gen.Kernel.Frame
import proofs.«411593_j1855425872454_3_alg».proof.Proof.Gen.KernelIdeal
import proofs.«411593_j1855425872454_3_alg».proof.Proof.Gen.KernelIdeal.Frame
import proofs.«411593_j1855425872454_3_alg».proof.Proof.Gen.ReferenceIdeal
import proofs.«411593_j1855425872454_3_alg».proof.Proof.Gen.Pre_finite_inputs
import proofs.«411593_j1855425872454_3_alg».proof.Proof.Final
import proofs.«411593_j1855425872454_3_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- Both programs end at the reference's result term of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
